-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x8 : Shape := ⟨2, ![1024, 8]⟩
abbrev S64x1536x1024 : Shape := ⟨3, ![64, 1536, 1024]⟩
abbrev S64x1024x768 : Shape := ⟨3, ![64, 1024, 768]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x1536x1024 : S_.BroadcastsInDim S64x1536x1024 (![] : Fin 0 → Fin S64x1536x1024.rank)
  reducesTo_S64x1536x1024_S_d0_1_2 : S64x1536x1024.ReducesTo [0, 1, 2] S_
  bcast_S_S64x1024x768 : S_.BroadcastsInDim S64x1024x768 (![] : Fin 0 → Fin S64x1024x768.rank)
  reducesTo_S64x1024x768_S_d0_1_2 : S64x1024x768.ReducesTo [0, 1, 2] S_

variable [Facts]

def fn_part1 {F : FTy → Type} [FloatOps F] (main_v13 : IVec S_ 1) (main_v16 : IVec S64x1024x768 1) : IVec S_ 1 :=
  let main_c_5 : IVec S_ 1 := constantI S_ 1 1#1
  let main_v17 : IVec S_ 1 := (fun x v => Host.reduce IntOp.andi x v reducesTo_S64x1024x768_S_d0_1_2 h_S_) main_v16 main_c_5
  let main_v18 : IVec S_ 1 := andi main_v13 main_v17
  main_v18

def fn {F : FTy → Type} [FloatOps F] (main_arg0 : FVec F S1024x1024 .f32) (main_arg1 : FVec F S1024x8 .f32) (main_arg2 : IVec S1024x8 32) (main_arg3 : FVec F S64x1536x1024 .f32) (main_arg4 : FVec F S64x1024x768 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x1536x1024 .f32 := Host.absf main_arg3
  let main_cst_2 : FVec F S_ .f32 := constant S_ .f32 0x7F800000#32
  let main_v10 : FVec F S64x1536x1024 .f32 := broadcastInDim S64x1536x1024 ![] bcast_S_S64x1536x1024 main_cst_2
  let main_v11 : IVec S64x1536x1024 1 := cmpf .olt main_v9 main_v10
  let main_c_3 : IVec S_ 1 := constantI S_ 1 1#1
  let main_v12 : IVec S_ 1 := (fun x v => Host.reduce IntOp.andi x v reducesTo_S64x1536x1024_S_d0_1_2 h_S_) main_v11 main_c_3
  let main_v13 : IVec S_ 1 := andi main_v8 main_v12
  let main_v14 : FVec F S64x1024x768 .f32 := Host.absf main_arg4
  let main_cst_4 : FVec F S_ .f32 := constant S_ .f32 0x7F800000#32
  let main_v15 : FVec F S64x1024x768 .f32 := broadcastInDim S64x1024x768 ![] bcast_S_S64x1024x768 main_cst_4
  let main_v16 : IVec S64x1024x768 1 := cmpf .olt main_v14 main_v15
  fn_part1 (F := F) main_v13 main_v16
-- ==== Kernel.lean ====
abbrev S1024x1024 : Shape := ⟨2, ![1024, 1024]⟩
abbrev S1024x8 : Shape := ⟨2, ![1024, 8]⟩
abbrev S64x1536x1024 : Shape := ⟨3, ![64, 1536, 1024]⟩
abbrev S64x1024x768 : Shape := ⟨3, ![64, 1024, 768]⟩
abbrev S8192 : Shape := ⟨1, ![8192]⟩
abbrev S_ : Shape := ⟨0, ![]⟩
abbrev S8192x1 : Shape := ⟨2, ![8192, 1]⟩
abbrev S64 : Shape := ⟨1, ![64]⟩
abbrev S8192x1024 : Shape := ⟨2, ![8192, 1024]⟩
abbrev S64x512x1024 : Shape := ⟨3, ![64, 512, 1024]⟩
abbrev S8192x2 : Shape := ⟨2, ![8192, 2]⟩
abbrev S1x512x1024 : Shape := ⟨3, ![1, 512, 1024]⟩
abbrev S1x1536x1024 : Shape := ⟨3, ![1, 1536, 1024]⟩
abbrev S1x1024x768 : Shape := ⟨3, ![1, 1024, 768]⟩
abbrev S512x1024 : Shape := ⟨2, ![512, 1024]⟩
abbrev S1536x1024 : Shape := ⟨2, ![1536, 1024]⟩
abbrev S512x1536 : Shape := ⟨2, ![512, 1536]⟩
abbrev S512x768 : Shape := ⟨2, ![512, 768]⟩
abbrev S1024x768 : Shape := ⟨2, ![1024, 768]⟩
abbrev S2 : Shape := ⟨1, ![2]⟩
abbrev S1x2 : Shape := ⟨2, ![1, 2]⟩
abbrev S1024x8x1024 : Shape := ⟨3, ![1024, 8, 1024]⟩
abbrev S1024x8x1 : Shape := ⟨3, ![1024, 8, 1]⟩

abbrev nBuf : Space → Nat
  | .hbm => 147
  | .vmem => 8
  | .smem => 0
  | _ => 0

abbrev hbmTy0_0 (i : Nat) : BufTy := match i % 128 with
  | 0 => ⟨S1024x1024, .f32⟩
  | 1 => ⟨S1024x8, .f32⟩
  | 2 => ⟨S1024x8, .i32⟩
  | 3 => ⟨S64x1536x1024, .f32⟩
  | 4 => ⟨S64x1024x768, .f32⟩
  | 5 => ⟨S8192, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S64, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S_, .i32⟩
  | 29 => ⟨S8192, .i32⟩
  | 30 => ⟨S64, .i32⟩
  | 31 => ⟨S_, .i32⟩
  | 32 => ⟨S_, .i32⟩
  | 33 => ⟨S64, .i32⟩
  | 34 => ⟨S64, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .i32⟩
  | 45 => ⟨S8192, .i32⟩
  | 46 => ⟨S_, .i32⟩
  | 47 => ⟨S_, .i32⟩
  | 48 => ⟨S8192, .i32⟩
  | 49 => ⟨S8192, .i32⟩
  | 50 => ⟨S8192, .i32⟩
  | 51 => ⟨S_, .i32⟩
  | 52 => ⟨S8192, .i32⟩
  | 53 => ⟨S8192, .i1⟩
  | 54 => ⟨S8192, .i32⟩
  | 55 => ⟨S8192, .i32⟩
  | 56 => ⟨S_, .i32⟩
  | 57 => ⟨S8192, .i32⟩
  | 58 => ⟨S8192, .i1⟩
  | 59 => ⟨S8192, .i1⟩
  | 60 => ⟨S_, .i32⟩
  | 61 => ⟨S8192, .i32⟩
  | 62 => ⟨S8192, .i32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x1024, .f32⟩
  | 73 => ⟨S_, .f32⟩
  | 74 => ⟨S64x512x1024, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x1, .i32⟩
  | 91 => ⟨S8192x2, .i32⟩
  | 92 => ⟨S64x512x1024, .f32⟩
  | 93 => ⟨S64x512x1024, .bf16⟩
  | 94 => ⟨S64x1536x1024, .bf16⟩
  | 95 => ⟨S64x1024x768, .bf16⟩
  | 96 => ⟨S64x512x1024, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x1, .i32⟩
  | 113 => ⟨S8192x2, .i32⟩
  | 114 => ⟨S2, .i32⟩
  | 115 => ⟨S_, .i32⟩
  | 116 => ⟨S8192x2, .i32⟩
  | 117 => ⟨S8192x2, .i1⟩
  | 118 => ⟨S1x2, .i32⟩
  | 119 => ⟨S8192x2, .i32⟩
  | 120 => ⟨S8192x2, .i1⟩
  | 121 => ⟨S8192x2, .i1⟩
  | 122 => ⟨S_, .i1⟩
  | 123 => ⟨S8192, .i1⟩
  | 124 => ⟨S8192x1024, .f32⟩
  | 125 => ⟨S8192x1024, .i1⟩
  | 126 => ⟨S_, .f32⟩
  | 127 => ⟨S8192x1024, .f32⟩
  | _ => ⟨S1024x1024, .f32⟩

abbrev hbmTy0_1 (i : Nat) : BufTy := match i % 128 with
  | 0 => ⟨S8192x1024, .f32⟩
  | 1 => ⟨S8192, .i32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x1024, .f32⟩
  | 13 => ⟨S1024x8x1024, .f32⟩
  | 14 => ⟨S1024x8x1, .f32⟩
  | 15 => ⟨S1024x8x1024, .f32⟩
  | 16 => ⟨S1024x8x1024, .f32⟩
  | 17 => ⟨S_, .f32⟩
  | 18 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x1536x1024, .bf16⟩
  | .local _ .vmem, ⟨3, _⟩ => ⟨S1x1536x1024, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x512x1024, .f32⟩
  | .local _ .vmem, ⟨7, _⟩ => ⟨S1x512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_call1_call0_c : Ref sig .tc := ⟨.hbm, 31, rfl⟩
abbrev main_call1_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_c_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_12 : Ref sig .tc := ⟨.hbm, 82, rfl⟩
abbrev main_v43 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_14 : Ref sig .tc := ⟨.hbm, 97, rfl⟩
abbrev main_v56 : Ref sig .tc := ⟨.hbm, 98, rfl⟩
abbrev main_v57 : Ref sig .tc := ⟨.hbm, 99, rfl⟩
abbrev main_c_15 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_c_16 : Ref sig .tc := ⟨.hbm, 104, rfl⟩
abbrev main_v61 : Ref sig .tc := ⟨.hbm, 105, rfl⟩
abbrev main_v62 : Ref sig .tc := ⟨.hbm, 106, rfl⟩
abbrev main_c_17 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_18 : Ref sig .tc := ⟨.hbm, 114, rfl⟩
abbrev main_c_19 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_c_20 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_21 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1_0 : Ref sig .tc := ⟨.hbm, 130, rfl⟩
abbrev main_v80 : Ref sig .tc := ⟨.hbm, 131, rfl⟩
abbrev main_c_22 : Ref sig .tc := ⟨.hbm, 132, rfl⟩
abbrev main_v81 : Ref sig .tc := ⟨.hbm, 133, rfl⟩
abbrev main_v82 : Ref sig .tc := ⟨.hbm, 134, rfl⟩
abbrev main_c_23 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_24 : Ref sig .tc := ⟨.hbm, 145, rfl⟩
abbrev main_v92 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x512x1024 : S_.BroadcastsInDim S64x512x1024 (![] : Fin 0 → Fin S64x512x1024.rank)
  concatenates_S8192x1_S8192x1_S8192x2_d1 : Shape.Concatenates [S8192x1, S8192x1] S8192x2 1
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1536x1024_S1x1536x1024_0_0_0 : ∀ a, (![0, 0, 0] : Fin 3 → Nat) a + S1x1536x1024.size a ≤ S1x1536x1024.size a
  h_S1x1536x1024 : 0 < S1x1536x1024.numel
  shapeCasts_S1x1536x1024_S1536x1024 : S1x1536x1024.ShapeCasts S1536x1024
  slices_S512x1536_o0_0_S512x768 : S512x1536.Slices ![0, 0] S512x768
  slices_S512x1536_o0_768_S512x768 : S512x1536.Slices ![0, 768] S512x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S512x1024_S1x512x1024 : S512x1024.ShapeCasts S1x512x1024
  bcast_S_S8192x2 : S_.BroadcastsInDim S8192x2 (![] : Fin 0 → Fin S8192x2.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  shapeCasts_S8192x1024_S1024x8x1024 : S8192x1024.ShapeCasts S1024x8x1024
  bcast_S1024x8_S1024x8x1_0_1 : S1024x8.BroadcastsInDim S1024x8x1 (![0, 1] : Fin 2 → Fin S1024x8x1.rank)
  bcast_S1024x8x1_S1024x8x1024_0_1_2 : S1024x8x1.BroadcastsInDim S1024x8x1024 (![0, 1, 2] : Fin 3 → Fin S1024x8x1024.rank)
  reducesTo_S1024x8x1024_S1024x1024_d1 : S1024x8x1024.ReducesTo [1] S1024x1024
  gather_S8192_S8192x1_S8192_n_0_n_n_0_1_1_wf : GatherDims.WF S8192 S8192x1 S8192 [] [0] [] [0] [] 1 ![1]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64x512x1024_S8192x2_S8192x1024_1_01_01_1_wf : ScatterDims.WF S64x512x1024 S8192x2 S8192x1024 [1] [0, 1] [0, 1] 1
  dot_S512x1024_S1536x1024_S512x1536_1_1_0_0_n_n_wf : DotDims.WF S512x1024 S1536x1024 S512x1536 [1] [1] [0] [0] [] []
  dot_S512x768_S1024x768_S512x1024_1_1_0_0_n_n_wf : DotDims.WF S512x768 S1024x768 S512x1024 [1] [1] [0] [0] [] []
  gather_S64x512x1024_S8192x2_S8192x1024_1_01_n_n_01_1_111024_wf : GatherDims.WF S64x512x1024 S8192x2 S8192x1024 [1] [0, 1] [] [0, 1] [] 1 ![1, 1, 1024]
  gather_S8192x1024_S8192x1_S8192x1024_1_0_n_n_0_1_11024_wf : GatherDims.WF S8192x1024 S8192x1 S8192x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .bf16 = 32 ∨ (Rect.block (s := S64x512x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1536x1024.size a ≤ S64x1536x1024.size a
  hwx0_1 : ∀ i : grid0.Coords, EltTy.bits .bf16 = 32 ∨ (Rect.block (s := S64x1536x1024) S1x1536x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x768.size a ≤ S64x1024x768.size a
  hwx0_2 : ∀ i : grid0.Coords, EltTy.bits .bf16 = 32 ∨ (Rect.block (s := S64x1024x768) S1x1024x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64x512x1024_S8192x2_S8192x1024_1_01_01_1 : ScatterDims S64x512x1024 S8192x2 S8192x1024 where
  updateWindowDims := [1]
  insertedWindowDims := [0, 1]
  scatterDimsToOperandDims := [0, 1]
  indexVectorDim := 1
  wf := scatter_S64x512x1024_S8192x2_S8192x1024_1_01_01_1_wf
def dot_S512x1024_S1536x1024_S512x1536_1_1_0_0_n_n : DotDims S512x1024 S1536x1024 S512x1536 where
  lhsContracting := [1]
  rhsContracting := [1]
  lhsNonContracting := [0]
  rhsNonContracting := [0]
  lhsBatch := []
  rhsBatch := []
  wf := dot_S512x1024_S1536x1024_S512x1536_1_1_0_0_n_n_wf
def dot_S512x768_S1024x768_S512x1024_1_1_0_0_n_n : DotDims S512x768 S1024x768 S512x1024 where
  lhsContracting := [1]
  rhsContracting := [1]
  lhsNonContracting := [0]
  rhsNonContracting := [0]
  lhsBatch := []
  rhsBatch := []
  wf := dot_S512x768_S1024x768_S512x1024_1_1_0_0_n_n_wf
def gather_S64x512x1024_S8192x2_S8192x1024_1_01_n_n_01_1_111024 : GatherDims S64x512x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x512x1024_S8192x2_S8192x1024_1_01_n_n_01_1_111024_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

abbrev win0_0 : Pipeline.Window sig grid0 :=
  Pipeline.Window.ofSpec (Memref.whole main_v52) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S1x1536x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1x1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8 : Shape := ⟨2, ![1024, 8]⟩
abbrev S64x1536x1024 : Shape := ⟨3, ![64, 1536, 1024]⟩
abbrev S64x1024x768 : Shape := ⟨3, ![64, 1024, 768]⟩
abbrev S8192 : Shape := ⟨1, ![8192]⟩
abbrev S_ : Shape := ⟨0, ![]⟩
abbrev S8192x1 : Shape := ⟨2, ![8192, 1]⟩
abbrev S64 : Shape := ⟨1, ![64]⟩
abbrev S8192x1024 : Shape := ⟨2, ![8192, 1024]⟩
abbrev S64x512x1024 : Shape := ⟨3, ![64, 512, 1024]⟩
abbrev S8192x2 : Shape := ⟨2, ![8192, 2]⟩
abbrev S64x512x1536 : Shape := ⟨3, ![64, 512, 1536]⟩
abbrev S64x512x768 : Shape := ⟨3, ![64, 512, 768]⟩
abbrev S2 : Shape := ⟨1, ![2]⟩
abbrev S1x2 : Shape := ⟨2, ![1, 2]⟩
abbrev S1024x8x1024 : Shape := ⟨3, ![1024, 8, 1024]⟩
abbrev S1024x8x1 : Shape := ⟨3, ![1024, 8, 1]⟩

abbrev nBuf : Space → Nat
  | .hbm => 157
  | .vmem => 0
  | .smem => 0
  | _ => 0

abbrev hbmTy0_0 (i : Nat) : BufTy := match i % 128 with
  | 0 => ⟨S1024x1024, .f32⟩
  | 1 => ⟨S1024x8, .f32⟩
  | 2 => ⟨S1024x8, .i32⟩
  | 3 => ⟨S64x1536x1024, .f32⟩
  | 4 => ⟨S64x1024x768, .f32⟩
  | 5 => ⟨S8192, .i32⟩
  | 6 => ⟨S8192, .i32⟩
  | 7 => ⟨S8192, .i32⟩
  | 8 => ⟨S8192, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192, .i32⟩
  | 18 => ⟨S_, .i32⟩
  | 19 => ⟨S64, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S_, .i32⟩
  | 29 => ⟨S8192, .i32⟩
  | 30 => ⟨S64, .i32⟩
  | 31 => ⟨S_, .i32⟩
  | 32 => ⟨S_, .i32⟩
  | 33 => ⟨S64, .i32⟩
  | 34 => ⟨S64, .i32⟩
  | 35 => ⟨S8192, .i32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192, .i32⟩
  | 45 => ⟨S8192, .i32⟩
  | 46 => ⟨S_, .i32⟩
  | 47 => ⟨S_, .i32⟩
  | 48 => ⟨S8192, .i32⟩
  | 49 => ⟨S8192, .i32⟩
  | 50 => ⟨S8192, .i32⟩
  | 51 => ⟨S_, .i32⟩
  | 52 => ⟨S8192, .i32⟩
  | 53 => ⟨S8192, .i1⟩
  | 54 => ⟨S8192, .i32⟩
  | 55 => ⟨S8192, .i32⟩
  | 56 => ⟨S_, .i32⟩
  | 57 => ⟨S8192, .i32⟩
  | 58 => ⟨S8192, .i1⟩
  | 59 => ⟨S8192, .i1⟩
  | 60 => ⟨S_, .i32⟩
  | 61 => ⟨S8192, .i32⟩
  | 62 => ⟨S8192, .i32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x1024, .f32⟩
  | 73 => ⟨S_, .f32⟩
  | 74 => ⟨S64x512x1024, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x1, .i32⟩
  | 91 => ⟨S8192x2, .i32⟩
  | 92 => ⟨S64x512x1024, .f32⟩
  | 93 => ⟨S64x512x1536, .f32⟩
  | 94 => ⟨S64x512x768, .f32⟩
  | 95 => ⟨S64x512x768, .f32⟩
  | 96 => ⟨S64x512x768, .f32⟩
  | 97 => ⟨S64x512x768, .f32⟩
  | 98 => ⟨S_, .f32⟩
  | 99 => ⟨S64x512x768, .f32⟩
  | 100 => ⟨S64x512x768, .f32⟩
  | 101 => ⟨S_, .f32⟩
  | 102 => ⟨S64x512x768, .f32⟩
  | 103 => ⟨S64x512x768, .f32⟩
  | 104 => ⟨S64x512x768, .f32⟩
  | 105 => ⟨S64x512x768, .f32⟩
  | 106 => ⟨S64x512x1024, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x1, .i32⟩
  | 123 => ⟨S8192x2, .i32⟩
  | 124 => ⟨S2, .i32⟩
  | 125 => ⟨S_, .i32⟩
  | 126 => ⟨S8192x2, .i32⟩
  | 127 => ⟨S8192x2, .i1⟩
  | _ => ⟨S1024x1024, .f32⟩

abbrev hbmTy0_1 (i : Nat) : BufTy := match i % 128 with
  | 0 => ⟨S1x2, .i32⟩
  | 1 => ⟨S8192x2, .i32⟩
  | 2 => ⟨S8192x2, .i1⟩
  | 3 => ⟨S8192x2, .i1⟩
  | 4 => ⟨S_, .i1⟩
  | 5 => ⟨S8192, .i1⟩
  | 6 => ⟨S8192x1024, .f32⟩
  | 7 => ⟨S8192x1024, .i1⟩
  | 8 => ⟨S_, .f32⟩
  | 9 => ⟨S8192x1024, .f32⟩
  | 10 => ⟨S8192x1024, .f32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x1024, .f32⟩
  | 23 => ⟨S1024x8x1024, .f32⟩
  | 24 => ⟨S1024x8x1, .f32⟩
  | 25 => ⟨S1024x8x1024, .f32⟩
  | 26 => ⟨S1024x8x1024, .f32⟩
  | 27 => ⟨S_, .f32⟩
  | 28 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1_0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_call1_call0_c : Ref sig .tc := ⟨.hbm, 31, rfl⟩
abbrev main_call1_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v29 : Ref sig .tc := ⟨.hbm, 63, rfl⟩
abbrev main_c_8 : Ref sig .tc := ⟨.hbm, 64, rfl⟩
abbrev main_v30 : Ref sig .tc := ⟨.hbm, 65, rfl⟩
abbrev main_v31 : Ref sig .tc := ⟨.hbm, 66, rfl⟩
abbrev main_c_9 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst : Ref sig .tc := ⟨.hbm, 73, rfl⟩
abbrev main_v37 : Ref sig .tc := ⟨.hbm, 74, rfl⟩
abbrev main_c_10 : Ref sig .tc := ⟨.hbm, 75, rfl⟩
abbrev main_v38 : Ref sig .tc := ⟨.hbm, 76, rfl⟩
abbrev main_v39 : Ref sig .tc := ⟨.hbm, 77, rfl⟩
abbrev main_c_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_c_12 : Ref sig .tc := ⟨.hbm, 82, rfl⟩
abbrev main_v43 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call3_v0 : Ref sig .tc := ⟨.hbm, 96, rfl⟩
abbrev main_call3_v1 : Ref sig .tc := ⟨.hbm, 97, rfl⟩
abbrev main_call3_cst : Ref sig .tc := ⟨.hbm, 98, rfl⟩
abbrev main_call3_v2 : Ref sig .tc := ⟨.hbm, 99, rfl⟩
abbrev main_call3_v3 : Ref sig .tc := ⟨.hbm, 100, rfl⟩
abbrev main_call3_cst_0 : Ref sig .tc := ⟨.hbm, 101, rfl⟩
abbrev main_call3_v4 : Ref sig .tc := ⟨.hbm, 102, rfl⟩
abbrev main_call3_v5 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_c_14 : Ref sig .tc := ⟨.hbm, 107, rfl⟩
abbrev main_v58 : Ref sig .tc := ⟨.hbm, 108, rfl⟩
abbrev main_v59 : Ref sig .tc := ⟨.hbm, 109, rfl⟩
abbrev main_c_15 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_c_16 : Ref sig .tc := ⟨.hbm, 114, rfl⟩
abbrev main_v63 : Ref sig .tc := ⟨.hbm, 115, rfl⟩
abbrev main_v64 : Ref sig .tc := ⟨.hbm, 116, rfl⟩
abbrev main_c_17 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_18 : Ref sig .tc := ⟨.hbm, 124, rfl⟩
abbrev main_c_19 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_20 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_21 : Ref sig .tc := ⟨.hbm, 136, rfl⟩
abbrev main_v80 : Ref sig .tc := ⟨.hbm, 137, rfl⟩
abbrev main_v81 : Ref sig .tc := ⟨.hbm, 138, rfl⟩
abbrev main_call4_v0 : Ref sig .tc := ⟨.hbm, 139, rfl⟩
abbrev main_call4_v1_0 : Ref sig .tc := ⟨.hbm, 140, rfl⟩
abbrev main_v82 : Ref sig .tc := ⟨.hbm, 141, rfl⟩
abbrev main_c_22 : Ref sig .tc := ⟨.hbm, 142, rfl⟩
abbrev main_v83 : Ref sig .tc := ⟨.hbm, 143, rfl⟩
abbrev main_v84 : Ref sig .tc := ⟨.hbm, 144, rfl⟩
abbrev main_c_23 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_24 : Ref sig .tc := ⟨.hbm, 155, rfl⟩
abbrev main_v94 : Ref sig .tc := ⟨.hbm, 156, rfl⟩

abbrev nD : Nat := 1
abbrev τ : Topo := Topo.v7x

variable {F : FTy → Type} [FloatOps F]

class Facts₀ : Prop where
  shapeCasts_S1024x8_S8192 : S1024x8.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S64 : S_.BroadcastsInDim S64 (![] : Fin 0 → Fin S64.rank)
  bcast_S_S_ : S_.BroadcastsInDim S_ (![] : Fin 0 → Fin S_.rank)
  reduceWindows_S64_S64_w64s1p63_0 : S64.ReduceWindows (![64] : Fin 1 → Nat) ![1] ![63] ![0] S64
  h_S_ : 0 < S_.numel
  bcast_S_S64x512x1024 : S_.BroadcastsInDim S64x512x1024 (![] : Fin 0 → Fin S64x512x1024.rank)
  concatenates_S8192x1_S8192x1_S8192x2_d1 : Shape.Concatenates [S8192x1, S8192x1] S8192x2 1
  slices_S64x512x1536_S64x512x768_0_0_0 : S64x512x1536.Slices ![0, 0, 0] S64x512x768
  slices_S64x512x1536_S64x512x768_0_0_768 : S64x512x1536.Slices ![0, 0, 768] S64x512x768
  bcast_S_S64x512x768 : S_.BroadcastsInDim S64x512x768 (![] : Fin 0 → Fin S64x512x768.rank)
  bcast_S_S8192x2 : S_.BroadcastsInDim S8192x2 (![] : Fin 0 → Fin S8192x2.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S8192_d1 : S8192x2.ReducesTo [1] S8192
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  shapeCasts_S8192x1024_S1024x8x1024 : S8192x1024.ShapeCasts S1024x8x1024
  bcast_S1024x8_S1024x8x1_0_1 : S1024x8.BroadcastsInDim S1024x8x1 (![0, 1] : Fin 2 → Fin S1024x8x1.rank)
  bcast_S1024x8x1_S1024x8x1024_0_1_2 : S1024x8x1.BroadcastsInDim S1024x8x1024 (![0, 1, 2] : Fin 3 → Fin S1024x8x1024.rank)
  reducesTo_S1024x8x1024_S1024x1024_d1 : S1024x8x1024.ReducesTo [1] S1024x1024
  gather_S8192_S8192x1_S8192_n_0_n_n_0_1_1_wf : GatherDims.WF S8192 S8192x1 S8192 [] [0] [] [0] [] 1 ![1]
  scatter_S64_S8192x1_S8192_n_0_0_1_wf : ScatterDims.WF S64 S8192x1 S8192 [] [0] [0] 1
  gather_S64_S8192x1_S8192_n_0_n_n_0_1_1_wf : GatherDims.WF S64 S8192x1 S8192 [] [0] [] [0] [] 1 ![1]
  gather_S1024x1024_S8192x1_S8192x1024_1_0_n_n_0_1_11024_wf : GatherDims.WF S1024x1024 S8192x1 S8192x1024 [1] [0] [] [0] [] 1 ![1, 1024]
  scatter_S64x512x1024_S8192x2_S8192x1024_1_01_01_1_wf : ScatterDims.WF S64x512x1024 S8192x2 S8192x1024 [1] [0, 1] [0, 1] 1
  dot_S64x512x1024_S64x1536x1024_S64x512x1536_2_2_1_1_0_0_wf : DotDims.WF S64x512x1024 S64x1536x1024 S64x512x1536 [2] [2] [1] [1] [0] [0]
  dot_S64x512x768_S64x1024x768_S64x512x1024_2_2_1_1_0_0_wf : DotDims.WF S64x512x768 S64x1024x768 S64x512x1024 [2] [2] [1] [1] [0] [0]
  gather_S64x512x1024_S8192x2_S8192x1024_1_01_n_n_01_1_111024_wf : GatherDims.WF S64x512x1024 S8192x2 S8192x1024 [1] [0, 1] [] [0, 1] [] 1 ![1, 1, 1024]
  gather_S8192x1024_S8192x1_S8192x1024_1_0_n_n_0_1_11024_wf : GatherDims.WF S8192x1024 S8192x1 S8192x1024 [1] [0] [] [0] [] 1 ![1, 1024]

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf
def gather_S64_S8192x1_S8192_n_0_n_n_0_1_1 : GatherDims S64 S8192x1 S8192 where
  offsetDims := []
  collapsedSliceDims := [0]
  operandBatchingDims := []
  startIndicesBatchingDims := []
  startIndexMap := [0]
  indexVectorDim := 1
  sliceSizes := ![1]
  wf := gather_S64_S8192x1_S8192_n_0_n_n_0_1_1_wf
def gather_S1024x1024_S8192x1_S8192x1024_1_0_n_n_0_1_11024 : GatherDims S1024x1024 S8192x1 S8192x1024 where
  offsetDims := [1]
  collapsedSliceDims := [0]
  operandBatchingDims := []
  startIndicesBatchingDims := []
  startIndexMap := [0]
  indexVectorDim := 1
  sliceSizes := ![1, 1024]
  wf := gather_S1024x1024_S8192x1_S8192x1024_1_0_n_n_0_1_11024_wf
def scatter_S64x512x1024_S8192x2_S8192x1024_1_01_01_1 : ScatterDims S64x512x1024 S8192x2 S8192x1024 where
  updateWindowDims := [1]
  insertedWindowDims := [0, 1]
  scatterDimsToOperandDims := [0, 1]
  indexVectorDim := 1
  wf := scatter_S64x512x1024_S8192x2_S8192x1024_1_01_01_1_wf
def dot_S64x512x1024_S64x1536x1024_S64x512x1536_2_2_1_1_0_0 : DotDims S64x512x1024 S64x1536x1024 S64x512x1536 where
  lhsContracting := [2]
  rhsContracting := [2]
  lhsNonContracting := [1]
  rhsNonContracting := [1]
  lhsBatch := [0]
  rhsBatch := [0]
  wf := dot_S64x512x1024_S64x1536x1024_S64x512x1536_2_2_1_1_0_0_wf
def dot_S64x512x768_S64x1024x768_S64x512x1024_2_2_1_1_0_0 : DotDims S64x512x768 S64x1024x768 S64x512x1024 where
  lhsContracting := [2]
  rhsContracting := [2]
  lhsNonContracting := [1]
  rhsNonContracting := [1]
  lhsBatch := [0]
  rhsBatch := [0]
  wf := dot_S64x512x768_S64x1024x768_S64x512x1024_2_2_1_1_0_0_wf
def gather_S64x512x1024_S8192x2_S8192x1024_1_01_n_n_01_1_111024 : GatherDims S64x512x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S64x512x1024_S8192x2_S8192x1024_1_01_n_n_01_1_111024_wf
def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.KerOps.lean ====
import proofs.«152988_j58317065945110_1_alg».proof.Proof.Gen.KernelIdeal.Launch
import Idealize.ShloMosaic.Lib.StableHlo.Run

noncomputable section

namespace Cert.KernelIdeal.Ops

open Cert.KernelIdeal Cert.KernelIdeal.Gen Idealize.ShloMosaic Idealize.ShloMosaic.TcCoe Idealize.SL.Sem

variable {F : FTy → Type} [FloatOps F]

/-- The lines before the region up to the two index columns: 86 operations, in order. -/
abbrev kA1 : List (HloOp τ sig (Elt F)) :=
  [ StableHlo.reshape main_arg2 main_v0 rfl shapeCasts_S1024x8_S8192,
    StableHlo.TRef.nullary (.of main_call0_v0 : StableHlo.TRef sig ⟨S8192, .i32⟩) (iotaInDim S8192 32 0),
    StableHlo.TRef.binary (.of main_v0 : StableHlo.TRef sig ⟨S8192, .i32⟩) (.of main_call0_v0 : StableHlo.TRef sig ⟨S8192, .i32⟩) (.of main_call0_v1_0 : StableHlo.TRef sig ⟨S8192, .i32⟩) (fun x y => (Host.sort2 S8192 0 comparator_i32_i32_d0 x y).1),
    StableHlo.TRef.binary (.of main_v0 : StableHlo.TRef sig ⟨S8192, .i32⟩) (.of main_call0_v0 : StableHlo.TRef sig ⟨S8192, .i32⟩) (.of main_v1 : StableHlo.TRef sig ⟨S8192, .i32⟩) (fun x y => (Host.sort2 S8192 0 comparator_i32_i32_d0 x y).2),
    StableHlo.nullary main_c (constantI S_ 32 0#32),
    StableHlo.unary main_c main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_v0 main_v7 main_v8 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 0#32),
    StableHlo.unary main_c_1 main_v9 (broadcastInDim S64 ![] bcast_S_S64 : (⟨S_, .i32⟩ : BufTy).Contents (Elt F) → (⟨S64, .i32⟩ : BufTy).Contents (Elt F)),
    StableHlo.nullary main_c_2 (constantI S_ 32 0#32),
    StableHlo.unary main_c_2 main_v10 (broadcastInDim S8192 ![] bcast_S_S8192 : (⟨S_, .i32⟩ : BufTy).Contents (Elt F) → (⟨S8192, .i32⟩ : BufTy).Contents (Elt F)),
    StableHlo.binary main_v0 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 64#32),
    StableHlo.unary main_c_3 main_v12 (broadcastInDim S8192 ![] bcast_S_S8192 : (⟨S_, .i32⟩ : BufTy).Contents (Elt F) → (⟨S8192, .i32⟩ : BufTy).Contents (Elt F)),
    StableHlo.binary main_v0 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v0 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.nullary main_c_4 (constantI S_ 32 1#32),
    StableHlo.unary main_c_4 main_v16 (broadcastInDim S8192 ![] bcast_S_S8192 : (⟨S_, .i32⟩ : BufTy).Contents (Elt F) → (⟨S8192, .i32⟩ : BufTy).Contents (Elt F)),
    StableHlo.ternary main_v9 main_v15 main_v16 main_v17 ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v17 : StableHlo.TRef sig ⟨S64, .i32⟩) (.of main_call1_call0_v0 : StableHlo.TRef sig ⟨S_, .i32⟩) (.of main_v18 : StableHlo.TRef sig ⟨S64, .i32⟩) (fun x v => Host.reduceWindow IntOp.addi ![64] ![1] ![63] ![0] x v reduceWindows_S64_S64_w64s1p63_0 h_S_),
    StableHlo.binary main_v18 main_v17 main_v19 (subi : (⟨S64, .i32⟩ : BufTy).Contents (Elt F) → (⟨S64, .i32⟩ : BufTy).Contents (Elt F) → (⟨S64, .i32⟩ : BufTy).Contents (Elt F)),
    StableHlo.nullary main_v20 (iotaInDim S8192 32 0),
    StableHlo.nullary main_c_5 (constantI S_ 32 0#32),
    StableHlo.unary main_c_5 main_v21 (broadcastInDim S8192 ![] bcast_S_S8192 : (⟨S_, .i32⟩ : BufTy).Contents (Elt F) → (⟨S8192, .i32⟩ : BufTy).Contents (Elt F)),
    StableHlo.binary main_v8 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 64#32),
    StableHlo.unary main_c_6 main_v23 (broadcastInDim S8192 ![] bcast_S_S8192 : (⟨S_, .i32⟩ : BufTy).Contents (Elt F) → (⟨S8192, .i32⟩ : BufTy).Contents (Elt F)),
    StableHlo.binary main_v8 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v8 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.binary main_v19 main_v26 main_v27 ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)),
    StableHlo.binary main_v20 main_v27 main_v28 (subi : (⟨S8192, .i32⟩ : BufTy).Contents (Elt F) → (⟨S8192, .i32⟩ : BufTy).Contents (Elt F) → (⟨S8192, .i32⟩ : BufTy).Contents (Elt F)),
    StableHlo.nullary main_c_7 (constantI S_ 32 8#32),
    StableHlo.TRef.unary (.of main_c_7 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S8192, .i32⟩) (broadcastInDim S8192 ![] bcast_S_S8192),
    StableHlo.TRef.binary (.of main_v1 : StableHlo.TRef sig ⟨S8192, .i32⟩) (.of main_call2_v1 : StableHlo.TRef sig ⟨S8192, .i32⟩) (.of main_call2_v2 : StableHlo.TRef sig ⟨S8192, .i32⟩) Host.divsi,
    StableHlo.TRef.unary (.of main_v1 : StableHlo.TRef sig ⟨S8192, .i32⟩) (.of main_call2_v3 : StableHlo.TRef sig ⟨S8192, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S8192, .i32⟩) (broadcastInDim S8192 ![] bcast_S_S8192),
    StableHlo.TRef.binary (.of main_call2_v3 : StableHlo.TRef sig ⟨S8192, .i32⟩) (.of main_call2_v5 : StableHlo.TRef sig ⟨S8192, .i32⟩) (.of main_call2_v6 : StableHlo.TRef sig ⟨S8192, .i1⟩) (cmpi .ne),
    StableHlo.TRef.unary (.of main_call2_v0 : StableHlo.TRef sig ⟨S_, .i32⟩) (.of main_call2_v7 : StableHlo.TRef sig ⟨S8192, .i32⟩) (broadcastInDim S8192 ![] bcast_S_S8192),
    StableHlo.TRef.binary (.of main_v1 : StableHlo.TRef sig ⟨S8192, .i32⟩) (.of main_call2_v7 : StableHlo.TRef sig ⟨S8192, .i32⟩) (.of main_call2_v8 : StableHlo.TRef sig ⟨S8192, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S8192, .i32⟩) (broadcastInDim S8192 ![] bcast_S_S8192),
    StableHlo.TRef.binary (.of main_call2_v8 : StableHlo.TRef sig ⟨S8192, .i32⟩) (.of main_call2_v9 : StableHlo.TRef sig ⟨S8192, .i32⟩) (.of main_call2_v10 : StableHlo.TRef sig ⟨S8192, .i1⟩) (cmpi .ne),
    StableHlo.TRef.binary (.of main_call2_v6 : StableHlo.TRef sig ⟨S8192, .i1⟩) (.of main_call2_v10 : StableHlo.TRef sig ⟨S8192, .i1⟩) (.of main_call2_v11 : StableHlo.TRef sig ⟨S8192, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S8192, .i32⟩) (broadcastInDim S8192 ![] bcast_S_S8192),
    StableHlo.TRef.binary (.of main_call2_v2 : StableHlo.TRef sig ⟨S8192, .i32⟩) (.of main_call2_v12 : StableHlo.TRef sig ⟨S8192, .i32⟩) (.of main_call2_v13 : StableHlo.TRef sig ⟨S8192, .i32⟩) subi,
    StableHlo.TRef.ternary (.of main_call2_v11 : StableHlo.TRef sig ⟨S8192, .i1⟩) (.of main_call2_v13 : StableHlo.TRef sig ⟨S8192, .i32⟩) (.of main_call2_v2 : StableHlo.TRef sig ⟨S8192, .i32⟩) (.of main_v29 : StableHlo.TRef sig ⟨S8192, .i32⟩) select,
    StableHlo.nullary main_c_8 (constantI S_ 32 0#32),
    StableHlo.unary main_c_8 main_v30 (broadcastInDim S8192 ![] bcast_S_S8192 : (⟨S_, .i32⟩ : BufTy).Contents (Elt F) → (⟨S8192, .i32⟩ : BufTy).Contents (Elt F)),
    StableHlo.binary main_v29 main_v30 main_v31 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 1024#32),
    StableHlo.unary main_c_9 main_v32 (broadcastInDim S8192 ![] bcast_S_S8192 : (⟨S_, .i32⟩ : BufTy).Contents (Elt F) → (⟨S8192, .i32⟩ : BufTy).Contents (Elt F)),
    StableHlo.binary main_v29 main_v32 main_v33 (addi : (⟨S8192, .i32⟩ : BufTy).Contents (Elt F) → (⟨S8192, .i32⟩ : BufTy).Contents (Elt F) → (⟨S8192, .i32⟩ : BufTy).Contents (Elt F)),
    StableHlo.ternary main_v31 main_v33 main_v29 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v34 main_v35 (broadcastInDim S8192x1 ![0] bcast_S8192_S8192x1_0 : (⟨S8192, .i32⟩ : BufTy).Contents (Elt F) → (⟨S8192x1, .i32⟩ : BufTy).Contents (Elt F)),
    StableHlo.binary main_arg0 main_v35 main_v36 ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)),
    StableHlo.nullary main_cst (constant S_ .f32 0x00000000#32),
    StableHlo.unary main_cst main_v37 (broadcastInDim S64x512x1024 ![] bcast_S_S64x512x1024 : (⟨S_, .f32⟩ : BufTy).Contents (Elt F) → (⟨S64x512x1024, .f32⟩ : BufTy).Contents (Elt F)),
    StableHlo.nullary main_c_10 (constantI S_ 32 0#32),
    StableHlo.unary main_c_10 main_v38 (broadcastInDim S8192 ![] bcast_S_S8192 : (⟨S_, .i32⟩ : BufTy).Contents (Elt F) → (⟨S8192, .i32⟩ : BufTy).Contents (Elt F)),
    StableHlo.binary main_v8 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 64#32),
    StableHlo.unary main_c_11 main_v40 (broadcastInDim S8192 ![] bcast_S_S8192 : (⟨S_, .i32⟩ : BufTy).Contents (Elt F) → (⟨S8192, .i32⟩ : BufTy).Contents (Elt F)),
    StableHlo.binary main_v8 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v8 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_12 (constantI S_ 32 0#32),
    StableHlo.unary main_c_12 main_v43 (broadcastInDim S8192 ![] bcast_S_S8192 : (⟨S_, .i32⟩ : BufTy).Contents (Elt F) → (⟨S8192, .i32⟩ : BufTy).Contents (Elt F)),
    StableHlo.binary main_v28 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 512#32),
    StableHlo.unary main_c_13 main_v45 (broadcastInDim S8192 ![] bcast_S_S8192 : (⟨S_, .i32⟩ : BufTy).Contents (Elt F) → (⟨S8192, .i32⟩ : BufTy).Contents (Elt F)),
    StableHlo.binary main_v28 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_v28 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v42 main_v48 (broadcastInDim S8192x1 ![0] bcast_S8192_S8192x1_0 : (⟨S8192, .i32⟩ : BufTy).Contents (Elt F) → (⟨S8192x1, .i32⟩ : BufTy).Contents (Elt F)),
    StableHlo.unary main_v47 main_v49 (broadcastInDim S8192x1 ![0] bcast_S8192_S8192x1_0 : (⟨S8192, .i32⟩ : BufTy).Contents (Elt F) → (⟨S8192x1, .i32⟩ : BufTy).Contents (Elt F)) ]

/-- The remaining lines before the region: the columns side by side, the scatter into the slot buffers, the three format changes: 5 operations, in order. -/
abbrev kA2 : List (HloOp τ sig (Elt F)) :=
  [ StableHlo.binary main_v48 main_v49 main_v50 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v37 main_v50 main_v36 main_v51 ((fun x i u => Host.scatter scatter_S64x512x1024_S8192x2_S8192x1024_1_01_01_1 (fun _ b => b) x i u) : (⟨S64x512x1024, .f32⟩ : BufTy).Contents (Elt F) → (⟨S8192x2, .i32⟩ : BufTy).Contents (Elt F) → (⟨S8192x1024, .f32⟩ : BufTy).Contents (Elt F) → (⟨S64x512x1024, .f32⟩ : BufTy).Contents (Elt F)),
    StableHlo.unary main_v51 main_v52 ((truncf .bf16 · bitsLt_bf16_f32) : (⟨S64x512x1024, .f32⟩ : BufTy).Contents (Elt F) → (⟨S64x512x1024, .bf16⟩ : BufTy).Contents (Elt F)),
    StableHlo.unary main_arg3 main_v53 ((truncf .bf16 · bitsLt_bf16_f32) : (⟨S64x1536x1024, .f32⟩ : BufTy).Contents (Elt F) → (⟨S64x1536x1024, .bf16⟩ : BufTy).Contents (Elt F)),
    StableHlo.unary main_arg4 main_v54 ((truncf .bf16 · bitsLt_bf16_f32) : (⟨S64x1024x768, .f32⟩ : BufTy).Contents (Elt F) → (⟨S64x1024x768, .bf16⟩ : BufTy).Contents (Elt F)) ]

/-- The lines after the region up to the two index columns: 16 operations, in order. -/
abbrev kC1 : List (HloOp τ sig (Elt F)) :=
  [ StableHlo.nullary main_c_14 (constantI S_ 32 0#32),
    StableHlo.unary main_c_14 main_v56 (broadcastInDim S8192 ![] bcast_S_S8192 : (⟨S_, .i32⟩ : BufTy).Contents (Elt F) → (⟨S8192, .i32⟩ : BufTy).Contents (Elt F)),
    StableHlo.binary main_v8 main_v56 main_v57 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 64#32),
    StableHlo.unary main_c_15 main_v58 (broadcastInDim S8192 ![] bcast_S_S8192 : (⟨S_, .i32⟩ : BufTy).Contents (Elt F) → (⟨S8192, .i32⟩ : BufTy).Contents (Elt F)),
    StableHlo.binary main_v8 main_v58 main_v59 (addi : (⟨S8192, .i32⟩ : BufTy).Contents (Elt F) → (⟨S8192, .i32⟩ : BufTy).Contents (Elt F) → (⟨S8192, .i32⟩ : BufTy).Contents (Elt F)),
    StableHlo.ternary main_v57 main_v59 main_v8 main_v60 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_16 (constantI S_ 32 0#32),
    StableHlo.unary main_c_16 main_v61 (broadcastInDim S8192 ![] bcast_S_S8192 : (⟨S_, .i32⟩ : BufTy).Contents (Elt F) → (⟨S8192, .i32⟩ : BufTy).Contents (Elt F)),
    StableHlo.binary main_v28 main_v61 main_v62 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 512#32),
    StableHlo.unary main_c_17 main_v63 (broadcastInDim S8192 ![] bcast_S_S8192 : (⟨S_, .i32⟩ : BufTy).Contents (Elt F) → (⟨S8192, .i32⟩ : BufTy).Contents (Elt F)),
    StableHlo.binary main_v28 main_v63 main_v64 (addi : (⟨S8192, .i32⟩ : BufTy).Contents (Elt F) → (⟨S8192, .i32⟩ : BufTy).Contents (Elt F) → (⟨S8192, .i32⟩ : BufTy).Contents (Elt F)),
    StableHlo.ternary main_v62 main_v64 main_v28 main_v65 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v60 main_v66 (broadcastInDim S8192x1 ![0] bcast_S8192_S8192x1_0 : (⟨S8192, .i32⟩ : BufTy).Contents (Elt F) → (⟨S8192x1, .i32⟩ : BufTy).Contents (Elt F)),
    StableHlo.unary main_v65 main_v67 (broadcastInDim S8192x1 ![0] bcast_S8192_S8192x1_0 : (⟨S8192, .i32⟩ : BufTy).Contents (Elt F) → (⟨S8192x1, .i32⟩ : BufTy).Contents (Elt F)) ]

/-- The remaining lines after the region: 34 operations, in order. -/
abbrev kC2 : List (HloOp τ sig (Elt F)) :=
  [ StableHlo.binary main_v66 main_v67 main_v68 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.nullary main_c_18 (fun i => lit0 (S2.rowMajor i)),
    StableHlo.nullary main_c_19 (constantI S_ 32 0#32),
    StableHlo.unary main_c_19 main_v69 (broadcastInDim S8192x2 ![] bcast_S_S8192x2 : (⟨S_, .i32⟩ : BufTy).Contents (Elt F) → (⟨S8192x2, .i32⟩ : BufTy).Contents (Elt F)),
    StableHlo.binary main_v68 main_v69 main_v70 (cmpi .sge : (⟨S8192x2, .i32⟩ : BufTy).Contents (Elt F) → (⟨S8192x2, .i32⟩ : BufTy).Contents (Elt F) → (⟨S8192x2, .i1⟩ : BufTy).Contents (Elt F)),
    StableHlo.unary main_c_18 main_v71 (broadcastInDim S1x2 ![1] bcast_S2_S1x2_1 : (⟨S2, .i32⟩ : BufTy).Contents (Elt F) → (⟨S1x2, .i32⟩ : BufTy).Contents (Elt F)),
    StableHlo.unary main_v71 main_v72 (broadcastInDim S8192x2 ![0, 1] bcast_S1x2_S8192x2_0_1 : (⟨S1x2, .i32⟩ : BufTy).Contents (Elt F) → (⟨S8192x2, .i32⟩ : BufTy).Contents (Elt F)),
    StableHlo.binary main_v68 main_v72 main_v73 (cmpi .sle : (⟨S8192x2, .i32⟩ : BufTy).Contents (Elt F) → (⟨S8192x2, .i32⟩ : BufTy).Contents (Elt F) → (⟨S8192x2, .i1⟩ : BufTy).Contents (Elt F)),
    StableHlo.binary main_v70 main_v73 main_v74 (andi : (⟨S8192x2, .i1⟩ : BufTy).Contents (Elt F) → (⟨S8192x2, .i1⟩ : BufTy).Contents (Elt F) → (⟨S8192x2, .i1⟩ : BufTy).Contents (Elt F)),
    StableHlo.nullary main_c_20 (constantI S_ 1 1#1),
    StableHlo.binary main_v74 main_c_20 main_v75 ((fun x v => Host.reduce IntOp.andi x v reducesTo_S8192x2_S8192_d1 h_S_) : (⟨S8192x2, .i1⟩ : BufTy).Contents (Elt F) → (⟨S_, .i1⟩ : BufTy).Contents (Elt F) → (⟨S8192, .i1⟩ : BufTy).Contents (Elt F)),
    StableHlo.binary main_v55 main_v68 main_v76 ((fun x i => Host.gather gather_S64x512x1024_S8192x2_S8192x1024_1_01_n_n_01_1_111024 x i) : (⟨S64x512x1024, .f32⟩ : BufTy).Contents (Elt F) → (⟨S8192x2, .i32⟩ : BufTy).Contents (Elt F) → (⟨S8192x1024, .f32⟩ : BufTy).Contents (Elt F)),
    StableHlo.unary main_v75 main_v77 (broadcastInDim S8192x1024 ![0] bcast_S8192_S8192x1024_0 : (⟨S8192, .i1⟩ : BufTy).Contents (Elt F) → (⟨S8192x1024, .i1⟩ : BufTy).Contents (Elt F)),
    StableHlo.nullary main_cst_21 (constant S_ .f32 0x00000000#32),
    StableHlo.unary main_cst_21 main_v78 (broadcastInDim S8192x1024 ![] bcast_S_S8192x1024 : (⟨S_, .f32⟩ : BufTy).Contents (Elt F) → (⟨S8192x1024, .f32⟩ : BufTy).Contents (Elt F)),
    StableHlo.ternary main_v77 main_v76 main_v78 main_v79 (select : (⟨S8192x1024, .i1⟩ : BufTy).Contents (Elt F) → (⟨S8192x1024, .f32⟩ : BufTy).Contents (Elt F) → (⟨S8192x1024, .f32⟩ : BufTy).Contents (Elt F) → (⟨S8192x1024, .f32⟩ : BufTy).Contents (Elt F)),
    StableHlo.TRef.nullary (.of main_call3_v0 : StableHlo.TRef sig ⟨S8192, .i32⟩) (iotaInDim S8192 32 0),
    StableHlo.TRef.binary (.of main_v1 : StableHlo.TRef sig ⟨S8192, .i32⟩) (.of main_call3_v0 : StableHlo.TRef sig ⟨S8192, .i32⟩) (.of main_call3_v1_0 : StableHlo.TRef sig ⟨S8192, .i32⟩) (fun x y => (Host.sort2 S8192 0 comparator_i32_i32_d0 x y).1),
    StableHlo.TRef.binary (.of main_v1 : StableHlo.TRef sig ⟨S8192, .i32⟩) (.of main_call3_v0 : StableHlo.TRef sig ⟨S8192, .i32⟩) (.of main_v80 : StableHlo.TRef sig ⟨S8192, .i32⟩) (fun x y => (Host.sort2 S8192 0 comparator_i32_i32_d0 x y).2),
    StableHlo.nullary main_c_22 (constantI S_ 32 0#32),
    StableHlo.unary main_c_22 main_v81 (broadcastInDim S8192 ![] bcast_S_S8192 : (⟨S_, .i32⟩ : BufTy).Contents (Elt F) → (⟨S8192, .i32⟩ : BufTy).Contents (Elt F)),
    StableHlo.binary main_v80 main_v81 main_v82 (cmpi .slt : (⟨S8192, .i32⟩ : BufTy).Contents (Elt F) → (⟨S8192, .i32⟩ : BufTy).Contents (Elt F) → (⟨S8192, .i1⟩ : BufTy).Contents (Elt F)),
    StableHlo.nullary main_c_23 (constantI S_ 32 8192#32),
    StableHlo.unary main_c_23 main_v83 (broadcastInDim S8192 ![] bcast_S_S8192 : (⟨S_, .i32⟩ : BufTy).Contents (Elt F) → (⟨S8192, .i32⟩ : BufTy).Contents (Elt F)),
    StableHlo.binary main_v80 main_v83 main_v84 (addi : (⟨S8192, .i32⟩ : BufTy).Contents (Elt F) → (⟨S8192, .i32⟩ : BufTy).Contents (Elt F) → (⟨S8192, .i32⟩ : BufTy).Contents (Elt F)),
    StableHlo.ternary main_v82 main_v84 main_v80 main_v85 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v85 main_v86 (broadcastInDim S8192x1 ![0] bcast_S8192_S8192x1_0 : (⟨S8192, .i32⟩ : BufTy).Contents (Elt F) → (⟨S8192x1, .i32⟩ : BufTy).Contents (Elt F)),
    StableHlo.binary main_v79 main_v86 main_v87 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    StableHlo.reshape main_v87 main_v88 rfl shapeCasts_S8192x1024_S1024x8x1024,
    StableHlo.unary main_arg1 main_v89 (broadcastInDim S1024x8x1 ![0, 1] bcast_S1024x8_S1024x8x1_0_1 : (⟨S1024x8, .f32⟩ : BufTy).Contents (Elt F) → (⟨S1024x8x1, .f32⟩ : BufTy).Contents (Elt F)),
    StableHlo.unary main_v89 main_v90 (broadcastInDim S1024x8x1024 ![0, 1, 2] bcast_S1024x8x1_S1024x8x1024_0_1_2 : (⟨S1024x8x1, .f32⟩ : BufTy).Contents (Elt F) → (⟨S1024x8x1024, .f32⟩ : BufTy).Contents (Elt F)),
    StableHlo.binary main_v88 main_v90 main_v91 (mulf : (⟨S1024x8x1024, .f32⟩ : BufTy).Contents (Elt F) → (⟨S1024x8x1024, .f32⟩ : BufTy).Contents (Elt F) → (⟨S1024x8x1024, .f32⟩ : BufTy).Contents (Elt F)),
    StableHlo.nullary main_cst_24 (constant S_ .f32 0x00000000#32),
    StableHlo.binary main_v91 main_cst_24 main_v92 ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) ]

end Cert.KernelIdeal.Ops

end
-- ==== Proof.RefOps.lean ====
import proofs.«152988_j58317065945110_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- Dispatch up to the two index columns (sorted expert id, slot position) of every routed pair: 86 operations, in order. -/
abbrev opsA1 : List (HloOp τ sig (Elt F)) :=
  [ StableHlo.reshape main_arg2 main_v0 rfl shapeCasts_S1024x8_S8192,
    StableHlo.TRef.nullary main_call0.v0 (iotaInDim S8192 32 0),
    StableHlo.TRef.binary (.of main_v0 : StableHlo.TRef sig ⟨S8192, .i32⟩) main_call0.v0 main_call0.v1_0 (fun x y => (Host.sort2 S8192 0 comparator_i32_i32_d0 x y).1),
    StableHlo.TRef.binary (.of main_v0 : StableHlo.TRef sig ⟨S8192, .i32⟩) main_call0.v0 main_call0.v1_1 (fun x y => (Host.sort2 S8192 0 comparator_i32_i32_d0 x y).2),
    StableHlo.nullary main_c (constantI S_ 32 0#32),
    StableHlo.unary main_c main_v2 (broadcastInDim S8192 ![] bcast_S_S8192 : (⟨S_, .i32⟩ : BufTy).Contents (Elt F) → (⟨S8192, .i32⟩ : BufTy).Contents (Elt F)),
    StableHlo.binary main_v1 main_v2 main_v3 (cmpi .slt : (⟨S8192, .i32⟩ : BufTy).Contents (Elt F) → (⟨S8192, .i32⟩ : BufTy).Contents (Elt F) → (⟨S8192, .i1⟩ : BufTy).Contents (Elt F)),
    StableHlo.nullary main_c_0 (constantI S_ 32 8192#32),
    StableHlo.unary main_c_0 main_v4 (broadcastInDim S8192 ![] bcast_S_S8192 : (⟨S_, .i32⟩ : BufTy).Contents (Elt F) → (⟨S8192, .i32⟩ : BufTy).Contents (Elt F)),
    StableHlo.binary main_v1 main_v4 main_v5 (addi : (⟨S8192, .i32⟩ : BufTy).Contents (Elt F) → (⟨S8192, .i32⟩ : BufTy).Contents (Elt F) → (⟨S8192, .i32⟩ : BufTy).Contents (Elt F)),
    StableHlo.ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v6 main_v7 (broadcastInDim S8192x1 ![0] bcast_S8192_S8192x1_0 : (⟨S8192, .i32⟩ : BufTy).Contents (Elt F) → (⟨S8192x1, .i32⟩ : BufTy).Contents (Elt F)),
    StableHlo.binary main_v0 main_v7 main_v8 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_1 (constantI S_ 32 0#32),
    StableHlo.unary main_c_1 main_v9 (broadcastInDim S64 ![] bcast_S_S64 : (⟨S_, .i32⟩ : BufTy).Contents (Elt F) → (⟨S64, .i32⟩ : BufTy).Contents (Elt F)),
    StableHlo.nullary main_c_2 (constantI S_ 32 0#32),
    StableHlo.unary main_c_2 main_v10 (broadcastInDim S8192 ![] bcast_S_S8192 : (⟨S_, .i32⟩ : BufTy).Contents (Elt F) → (⟨S8192, .i32⟩ : BufTy).Contents (Elt F)),
    StableHlo.binary main_v0 main_v10 main_v11 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 64#32),
    StableHlo.unary main_c_3 main_v12 (broadcastInDim S8192 ![] bcast_S_S8192 : (⟨S_, .i32⟩ : BufTy).Contents (Elt F) → (⟨S8192, .i32⟩ : BufTy).Contents (Elt F)),
    StableHlo.binary main_v0 main_v12 main_v13 (addi : (⟨S8192, .i32⟩ : BufTy).Contents (Elt F) → (⟨S8192, .i32⟩ : BufTy).Contents (Elt F) → (⟨S8192, .i32⟩ : BufTy).Contents (Elt F)),
    StableHlo.ternary main_v11 main_v13 main_v0 main_v14 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v14 main_v15 (broadcastInDim S8192x1 ![0] bcast_S8192_S8192x1_0 : (⟨S8192, .i32⟩ : BufTy).Contents (Elt F) → (⟨S8192x1, .i32⟩ : BufTy).Contents (Elt F)),
    StableHlo.nullary main_c_4 (constantI S_ 32 1#32),
    StableHlo.unary main_c_4 main_v16 (broadcastInDim S8192 ![] bcast_S_S8192 : (⟨S_, .i32⟩ : BufTy).Contents (Elt F) → (⟨S8192, .i32⟩ : BufTy).Contents (Elt F)),
    StableHlo.ternary main_v9 main_v15 main_v16 main_v17 ((fun x i u => Host.scatter scatter_S64_S8192x1_S8192_n_0_0_1 IntOp.addi x i u) : (⟨S64, .i32⟩ : BufTy).Contents (Elt F) → (⟨S8192x1, .i32⟩ : BufTy).Contents (Elt F) → (⟨S8192, .i32⟩ : BufTy).Contents (Elt F) → (⟨S64, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v17 : StableHlo.TRef sig ⟨S64, .i32⟩) main_call1.call0.v0 main_call1.call0.v1 (fun x v => Host.reduceWindow IntOp.addi ![64] ![1] ![63] ![0] x v reduceWindows_S64_S64_w64s1p63_0 h_S_),
    StableHlo.binary main_v18 main_v17 main_v19 (subi : (⟨S64, .i32⟩ : BufTy).Contents (Elt F) → (⟨S64, .i32⟩ : BufTy).Contents (Elt F) → (⟨S64, .i32⟩ : BufTy).Contents (Elt F)),
    StableHlo.nullary main_v20 (iotaInDim S8192 32 0),
    StableHlo.nullary main_c_5 (constantI S_ 32 0#32),
    StableHlo.unary main_c_5 main_v21 (broadcastInDim S8192 ![] bcast_S_S8192 : (⟨S_, .i32⟩ : BufTy).Contents (Elt F) → (⟨S8192, .i32⟩ : BufTy).Contents (Elt F)),
    StableHlo.binary main_v8 main_v21 main_v22 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 64#32),
    StableHlo.unary main_c_6 main_v23 (broadcastInDim S8192 ![] bcast_S_S8192 : (⟨S_, .i32⟩ : BufTy).Contents (Elt F) → (⟨S8192, .i32⟩ : BufTy).Contents (Elt F)),
    StableHlo.binary main_v8 main_v23 main_v24 (addi : (⟨S8192, .i32⟩ : BufTy).Contents (Elt F) → (⟨S8192, .i32⟩ : BufTy).Contents (Elt F) → (⟨S8192, .i32⟩ : BufTy).Contents (Elt F)),
    StableHlo.ternary main_v22 main_v24 main_v8 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v25 main_v26 (broadcastInDim S8192x1 ![0] bcast_S8192_S8192x1_0 : (⟨S8192, .i32⟩ : BufTy).Contents (Elt F) → (⟨S8192x1, .i32⟩ : BufTy).Contents (Elt F)),
    StableHlo.binary main_v19 main_v26 main_v27 ((fun x i => Host.gather gather_S64_S8192x1_S8192_n_0_n_n_0_1_1 x i) : (⟨S64, .i32⟩ : BufTy).Contents (Elt F) → (⟨S8192x1, .i32⟩ : BufTy).Contents (Elt F) → (⟨S8192, .i32⟩ : BufTy).Contents (Elt F)),
    StableHlo.binary main_v20 main_v27 main_v28 (subi : (⟨S8192, .i32⟩ : BufTy).Contents (Elt F) → (⟨S8192, .i32⟩ : BufTy).Contents (Elt F) → (⟨S8192, .i32⟩ : BufTy).Contents (Elt F)),
    StableHlo.nullary main_c_7 (constantI S_ 32 8#32),
    StableHlo.TRef.unary (.of main_c_7 : StableHlo.TRef sig ⟨S_, .i32⟩) main_call2.v0 id,
    StableHlo.TRef.unary main_call2.v0 main_call2.v1 (broadcastInDim S8192 ![] bcast_S_S8192),
    StableHlo.TRef.binary (.of main_v1 : StableHlo.TRef sig ⟨S8192, .i32⟩) main_call2.v1 main_call2.v2 Host.divsi,
    StableHlo.TRef.unary (.of main_v1 : StableHlo.TRef sig ⟨S8192, .i32⟩) main_call2.v3 signi,
    StableHlo.TRef.unary main_call2.v0 main_call2.v4 signi,
    StableHlo.TRef.unary main_call2.v4 main_call2.v5 (broadcastInDim S8192 ![] bcast_S_S8192),
    StableHlo.TRef.binary main_call2.v3 main_call2.v5 main_call2.v6 (cmpi .ne),
    StableHlo.TRef.unary main_call2.v0 main_call2.v7 (broadcastInDim S8192 ![] bcast_S_S8192),
    StableHlo.TRef.binary (.of main_v1 : StableHlo.TRef sig ⟨S8192, .i32⟩) main_call2.v7 main_call2.v8 Host.remsi,
    StableHlo.TRef.nullary main_call2.c (constantI S_ 32 0#32),
    StableHlo.TRef.unary main_call2.c main_call2.v9 (broadcastInDim S8192 ![] bcast_S_S8192),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S8192 ![] bcast_S_S8192),
    StableHlo.TRef.binary main_call2.v2 main_call2.v12 main_call2.v13 subi,
    StableHlo.TRef.ternary (main_call2.v11 : StableHlo.TRef sig ⟨S8192, .i1⟩) (main_call2.v13 : StableHlo.TRef sig ⟨S8192, .i32⟩) (main_call2.v2 : StableHlo.TRef sig ⟨S8192, .i32⟩) main_call2.call0.v0 select,
    StableHlo.nullary main_c_8 (constantI S_ 32 0#32),
    StableHlo.unary main_c_8 main_v30 (broadcastInDim S8192 ![] bcast_S_S8192 : (⟨S_, .i32⟩ : BufTy).Contents (Elt F) → (⟨S8192, .i32⟩ : BufTy).Contents (Elt F)),
    StableHlo.binary main_v29 main_v30 main_v31 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 1024#32),
    StableHlo.unary main_c_9 main_v32 (broadcastInDim S8192 ![] bcast_S_S8192 : (⟨S_, .i32⟩ : BufTy).Contents (Elt F) → (⟨S8192, .i32⟩ : BufTy).Contents (Elt F)),
    StableHlo.binary main_v29 main_v32 main_v33 (addi : (⟨S8192, .i32⟩ : BufTy).Contents (Elt F) → (⟨S8192, .i32⟩ : BufTy).Contents (Elt F) → (⟨S8192, .i32⟩ : BufTy).Contents (Elt F)),
    StableHlo.ternary main_v31 main_v33 main_v29 main_v34 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v34 main_v35 (broadcastInDim S8192x1 ![0] bcast_S8192_S8192x1_0 : (⟨S8192, .i32⟩ : BufTy).Contents (Elt F) → (⟨S8192x1, .i32⟩ : BufTy).Contents (Elt F)),
    StableHlo.binary main_arg0 main_v35 main_v36 ((fun x i => Host.gather gather_S1024x1024_S8192x1_S8192x1024_1_0_n_n_0_1_11024 x i) : (⟨S1024x1024, .f32⟩ : BufTy).Contents (Elt F) → (⟨S8192x1, .i32⟩ : BufTy).Contents (Elt F) → (⟨S8192x1024, .f32⟩ : BufTy).Contents (Elt F)),
    StableHlo.nullary main_cst (constant S_ .f32 0x00000000#32),
    StableHlo.unary main_cst main_v37 (broadcastInDim S64x512x1024 ![] bcast_S_S64x512x1024 : (⟨S_, .f32⟩ : BufTy).Contents (Elt F) → (⟨S64x512x1024, .f32⟩ : BufTy).Contents (Elt F)),
    StableHlo.nullary main_c_10 (constantI S_ 32 0#32),
    StableHlo.unary main_c_10 main_v38 (broadcastInDim S8192 ![] bcast_S_S8192 : (⟨S_, .i32⟩ : BufTy).Contents (Elt F) → (⟨S8192, .i32⟩ : BufTy).Contents (Elt F)),
    StableHlo.binary main_v8 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_11 (constantI S_ 32 64#32),
    StableHlo.unary main_c_11 main_v40 (broadcastInDim S8192 ![] bcast_S_S8192 : (⟨S_, .i32⟩ : BufTy).Contents (Elt F) → (⟨S8192, .i32⟩ : BufTy).Contents (Elt F)),
    StableHlo.binary main_v8 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v8 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_12 (constantI S_ 32 0#32),
    StableHlo.unary main_c_12 main_v43 (broadcastInDim S8192 ![] bcast_S_S8192 : (⟨S_, .i32⟩ : BufTy).Contents (Elt F) → (⟨S8192, .i32⟩ : BufTy).Contents (Elt F)),
    StableHlo.binary main_v28 main_v43 main_v44 (cmpi .slt : (⟨S8192, .i32⟩ : BufTy).Contents (Elt F) → (⟨S8192, .i32⟩ : BufTy).Contents (Elt F) → (⟨S8192, .i1⟩ : BufTy).Contents (Elt F)),
    StableHlo.nullary main_c_13 (constantI S_ 32 512#32),
    StableHlo.unary main_c_13 main_v45 (broadcastInDim S8192 ![] bcast_S_S8192 : (⟨S_, .i32⟩ : BufTy).Contents (Elt F) → (⟨S8192, .i32⟩ : BufTy).Contents (Elt F)),
    StableHlo.binary main_v28 main_v45 main_v46 (addi : (⟨S8192, .i32⟩ : BufTy).Contents (Elt F) → (⟨S8192, .i32⟩ : BufTy).Contents (Elt F) → (⟨S8192, .i32⟩ : BufTy).Contents (Elt F)),
    StableHlo.ternary main_v44 main_v46 main_v28 main_v47 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v42 main_v48 (broadcastInDim S8192x1 ![0] bcast_S8192_S8192x1_0 : (⟨S8192, .i32⟩ : BufTy).Contents (Elt F) → (⟨S8192x1, .i32⟩ : BufTy).Contents (Elt F)),
    StableHlo.unary main_v47 main_v49 (broadcastInDim S8192x1 ![0] bcast_S8192_S8192x1_0 : (⟨S8192, .i32⟩ : BufTy).Contents (Elt F) → (⟨S8192x1, .i32⟩ : BufTy).Contents (Elt F)) ]
theorem opsA1_sub : (opsA1 : List (HloOp τ sig (Elt F))).Forall fun op => op.bufs ⊆ StableHlo.tcRefs τ sig :=
  ⟨StableHlo.reshape_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩

/-- Dispatch's last lines: the columns side by side, the token rows scattered into the per-expert slot buffers: 2 operations, in order. -/
abbrev opsA2 : List (HloOp τ sig (Elt F)) :=
  [ StableHlo.binary main_v48 main_v49 main_v50 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.ternary main_v37 main_v50 main_v36 main_v51 ((fun x i u => Host.scatter scatter_S64x512x1024_S8192x2_S8192x1024_1_01_01_1 (fun _ b => b) x i u) : (⟨S64x512x1024, .f32⟩ : BufTy).Contents (Elt F) → (⟨S8192x2, .i32⟩ : BufTy).Contents (Elt F) → (⟨S8192x1024, .f32⟩ : BufTy).Contents (Elt F) → (⟨S64x512x1024, .f32⟩ : BufTy).Contents (Elt F)) ]
theorem opsA2_sub : (opsA2 : List (HloOp τ sig (Elt F))).Forall fun op => op.bufs ⊆ StableHlo.tcRefs τ sig :=
  ⟨StableHlo.binary_bufs_sub .., StableHlo.ternary_bufs_sub ..⟩

/-- The expert MLPs: 14 operations, in order. -/
abbrev opsB : List (HloOp τ sig (Elt F)) :=
  [ StableHlo.binary main_v51 main_arg3 main_v52 ((fun l r => Host.dotGeneral dot_S64x512x1024_S64x1536x1024_S64x512x1536_2_2_1_1_0_0 none l r) : (⟨S64x512x1024, .f32⟩ : BufTy).Contents (Elt F) → (⟨S64x1536x1024, .f32⟩ : BufTy).Contents (Elt F) → (⟨S64x512x1536, .f32⟩ : BufTy).Contents (Elt F)),
    StableHlo.unary main_v52 main_v53 ((extractStridedSlice S64x512x768 ![0, 0, 0] · slices_S64x512x1536_S64x512x768_0_0_0) : (⟨S64x512x1536, .f32⟩ : BufTy).Contents (Elt F) → (⟨S64x512x768, .f32⟩ : BufTy).Contents (Elt F)),
    StableHlo.unary main_v52 main_v54 ((extractStridedSlice S64x512x768 ![0, 0, 768] · slices_S64x512x1536_S64x512x768_0_0_768) : (⟨S64x512x1536, .f32⟩ : BufTy).Contents (Elt F) → (⟨S64x512x768, .f32⟩ : BufTy).Contents (Elt F)),
    StableHlo.TRef.unary (.of main_v53 : StableHlo.TRef sig ⟨S64x512x768, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S64x512x768 ![] bcast_S_S64x512x768),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S64x512x768 ![] bcast_S_S64x512x768),
    StableHlo.TRef.binary main_call3.v4 main_call3.v3 main_call3.v5 Host.divf,
    StableHlo.TRef.binary (.of main_v53 : StableHlo.TRef sig ⟨S64x512x768, .f32⟩) main_call3.v5 main_call3.v6 mulf,
    StableHlo.binary main_v55 main_v54 main_v56 (mulf : (⟨S64x512x768, .f32⟩ : BufTy).Contents (Elt F) → (⟨S64x512x768, .f32⟩ : BufTy).Contents (Elt F) → (⟨S64x512x768, .f32⟩ : BufTy).Contents (Elt F)),
    StableHlo.binary main_v56 main_arg4 main_v57 ((fun l r => Host.dotGeneral dot_S64x512x768_S64x1024x768_S64x512x1024_2_2_1_1_0_0 none l r) : (⟨S64x512x768, .f32⟩ : BufTy).Contents (Elt F) → (⟨S64x1024x768, .f32⟩ : BufTy).Contents (Elt F) → (⟨S64x512x1024, .f32⟩ : BufTy).Contents (Elt F)) ]
theorem opsB_sub : (opsB : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

/-- Combine up to the two index columns: 16 operations, in order. -/
abbrev opsC1 : List (HloOp τ sig (Elt F)) :=
  [ StableHlo.nullary main_c_14 (constantI S_ 32 0#32),
    StableHlo.unary main_c_14 main_v58 (broadcastInDim S8192 ![] bcast_S_S8192 : (⟨S_, .i32⟩ : BufTy).Contents (Elt F) → (⟨S8192, .i32⟩ : BufTy).Contents (Elt F)),
    StableHlo.binary main_v8 main_v58 main_v59 (cmpi .slt : (⟨S8192, .i32⟩ : BufTy).Contents (Elt F) → (⟨S8192, .i32⟩ : BufTy).Contents (Elt F) → (⟨S8192, .i1⟩ : BufTy).Contents (Elt F)),
    StableHlo.nullary main_c_15 (constantI S_ 32 64#32),
    StableHlo.unary main_c_15 main_v60 (broadcastInDim S8192 ![] bcast_S_S8192 : (⟨S_, .i32⟩ : BufTy).Contents (Elt F) → (⟨S8192, .i32⟩ : BufTy).Contents (Elt F)),
    StableHlo.binary main_v8 main_v60 main_v61 (addi : (⟨S8192, .i32⟩ : BufTy).Contents (Elt F) → (⟨S8192, .i32⟩ : BufTy).Contents (Elt F) → (⟨S8192, .i32⟩ : BufTy).Contents (Elt F)),
    StableHlo.ternary main_v59 main_v61 main_v8 main_v62 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_16 (constantI S_ 32 0#32),
    StableHlo.unary main_c_16 main_v63 (broadcastInDim S8192 ![] bcast_S_S8192 : (⟨S_, .i32⟩ : BufTy).Contents (Elt F) → (⟨S8192, .i32⟩ : BufTy).Contents (Elt F)),
    StableHlo.binary main_v28 main_v63 main_v64 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 512#32),
    StableHlo.unary main_c_17 main_v65 (broadcastInDim S8192 ![] bcast_S_S8192 : (⟨S_, .i32⟩ : BufTy).Contents (Elt F) → (⟨S8192, .i32⟩ : BufTy).Contents (Elt F)),
    StableHlo.binary main_v28 main_v65 main_v66 (addi : (⟨S8192, .i32⟩ : BufTy).Contents (Elt F) → (⟨S8192, .i32⟩ : BufTy).Contents (Elt F) → (⟨S8192, .i32⟩ : BufTy).Contents (Elt F)),
    StableHlo.ternary main_v64 main_v66 main_v28 main_v67 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v62 main_v68 (broadcastInDim S8192x1 ![0] bcast_S8192_S8192x1_0 : (⟨S8192, .i32⟩ : BufTy).Contents (Elt F) → (⟨S8192x1, .i32⟩ : BufTy).Contents (Elt F)),
    StableHlo.unary main_v67 main_v69 (broadcastInDim S8192x1 ![0] bcast_S8192_S8192x1_0 : (⟨S8192, .i32⟩ : BufTy).Contents (Elt F) → (⟨S8192x1, .i32⟩ : BufTy).Contents (Elt F)) ]
theorem opsC1_sub : (opsC1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩

/-- Combine's remaining lines: the slots gathered back (zero where a pair was dropped), un-sorted, weighted and summed per token: 34 operations, in order. -/
abbrev opsC2 : List (HloOp τ sig (Elt F)) :=
  [ StableHlo.binary main_v68 main_v69 main_v70 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.nullary main_c_18 (fun i => lit0 (S2.rowMajor i)),
    StableHlo.nullary main_c_19 (constantI S_ 32 0#32),
    StableHlo.unary main_c_19 main_v71 (broadcastInDim S8192x2 ![] bcast_S_S8192x2 : (⟨S_, .i32⟩ : BufTy).Contents (Elt F) → (⟨S8192x2, .i32⟩ : BufTy).Contents (Elt F)),
    StableHlo.binary main_v70 main_v71 main_v72 (cmpi .sge : (⟨S8192x2, .i32⟩ : BufTy).Contents (Elt F) → (⟨S8192x2, .i32⟩ : BufTy).Contents (Elt F) → (⟨S8192x2, .i1⟩ : BufTy).Contents (Elt F)),
    StableHlo.unary main_c_18 main_v73 (broadcastInDim S1x2 ![1] bcast_S2_S1x2_1 : (⟨S2, .i32⟩ : BufTy).Contents (Elt F) → (⟨S1x2, .i32⟩ : BufTy).Contents (Elt F)),
    StableHlo.unary main_v73 main_v74 (broadcastInDim S8192x2 ![0, 1] bcast_S1x2_S8192x2_0_1 : (⟨S1x2, .i32⟩ : BufTy).Contents (Elt F) → (⟨S8192x2, .i32⟩ : BufTy).Contents (Elt F)),
    StableHlo.binary main_v70 main_v74 main_v75 (cmpi .sle : (⟨S8192x2, .i32⟩ : BufTy).Contents (Elt F) → (⟨S8192x2, .i32⟩ : BufTy).Contents (Elt F) → (⟨S8192x2, .i1⟩ : BufTy).Contents (Elt F)),
    StableHlo.binary main_v72 main_v75 main_v76 (andi : (⟨S8192x2, .i1⟩ : BufTy).Contents (Elt F) → (⟨S8192x2, .i1⟩ : BufTy).Contents (Elt F) → (⟨S8192x2, .i1⟩ : BufTy).Contents (Elt F)),
    StableHlo.nullary main_c_20 (constantI S_ 1 1#1),
    StableHlo.binary main_v76 main_c_20 main_v77 ((fun x v => Host.reduce IntOp.andi x v reducesTo_S8192x2_S8192_d1 h_S_) : (⟨S8192x2, .i1⟩ : BufTy).Contents (Elt F) → (⟨S_, .i1⟩ : BufTy).Contents (Elt F) → (⟨S8192, .i1⟩ : BufTy).Contents (Elt F)),
    StableHlo.binary main_v57 main_v70 main_v78 ((fun x i => Host.gather gather_S64x512x1024_S8192x2_S8192x1024_1_01_n_n_01_1_111024 x i) : (⟨S64x512x1024, .f32⟩ : BufTy).Contents (Elt F) → (⟨S8192x2, .i32⟩ : BufTy).Contents (Elt F) → (⟨S8192x1024, .f32⟩ : BufTy).Contents (Elt F)),
    StableHlo.unary main_v77 main_v79 (broadcastInDim S8192x1024 ![0] bcast_S8192_S8192x1024_0 : (⟨S8192, .i1⟩ : BufTy).Contents (Elt F) → (⟨S8192x1024, .i1⟩ : BufTy).Contents (Elt F)),
    StableHlo.nullary main_cst_21 (constant S_ .f32 0x00000000#32),
    StableHlo.unary main_cst_21 main_v80 (broadcastInDim S8192x1024 ![] bcast_S_S8192x1024 : (⟨S_, .f32⟩ : BufTy).Contents (Elt F) → (⟨S8192x1024, .f32⟩ : BufTy).Contents (Elt F)),
    StableHlo.ternary main_v79 main_v78 main_v80 main_v81 (select : (⟨S8192x1024, .i1⟩ : BufTy).Contents (Elt F) → (⟨S8192x1024, .f32⟩ : BufTy).Contents (Elt F) → (⟨S8192x1024, .f32⟩ : BufTy).Contents (Elt F) → (⟨S8192x1024, .f32⟩ : BufTy).Contents (Elt F)),
    StableHlo.TRef.nullary main_call4.v0 (iotaInDim S8192 32 0),
    StableHlo.TRef.binary (.of main_v1 : StableHlo.TRef sig ⟨S8192, .i32⟩) main_call4.v0 main_call4.v1_0 (fun x y => (Host.sort2 S8192 0 comparator_i32_i32_d0 x y).1),
    StableHlo.TRef.binary (.of main_v1 : StableHlo.TRef sig ⟨S8192, .i32⟩) main_call4.v0 main_call4.v1_1 (fun x y => (Host.sort2 S8192 0 comparator_i32_i32_d0 x y).2),
    StableHlo.nullary main_c_22 (constantI S_ 32 0#32),
    StableHlo.unary main_c_22 main_v83 (broadcastInDim S8192 ![] bcast_S_S8192 : (⟨S_, .i32⟩ : BufTy).Contents (Elt F) → (⟨S8192, .i32⟩ : BufTy).Contents (Elt F)),
    StableHlo.binary main_v82 main_v83 main_v84 (cmpi .slt : (⟨S8192, .i32⟩ : BufTy).Contents (Elt F) → (⟨S8192, .i32⟩ : BufTy).Contents (Elt F) → (⟨S8192, .i1⟩ : BufTy).Contents (Elt F)),
    StableHlo.nullary main_c_23 (constantI S_ 32 8192#32),
    StableHlo.unary main_c_23 main_v85 (broadcastInDim S8192 ![] bcast_S_S8192 : (⟨S_, .i32⟩ : BufTy).Contents (Elt F) → (⟨S8192, .i32⟩ : BufTy).Contents (Elt F)),
    StableHlo.binary main_v82 main_v85 main_v86 (addi : (⟨S8192, .i32⟩ : BufTy).Contents (Elt F) → (⟨S8192, .i32⟩ : BufTy).Contents (Elt F) → (⟨S8192, .i32⟩ : BufTy).Contents (Elt F)),
    StableHlo.ternary main_v84 main_v86 main_v82 main_v87 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v87 main_v88 (broadcastInDim S8192x1 ![0] bcast_S8192_S8192x1_0 : (⟨S8192, .i32⟩ : BufTy).Contents (Elt F) → (⟨S8192x1, .i32⟩ : BufTy).Contents (Elt F)),
    StableHlo.binary main_v81 main_v88 main_v89 ((fun x i => Host.gather gather_S8192x1024_S8192x1_S8192x1024_1_0_n_n_0_1_11024 x i) : (⟨S8192x1024, .f32⟩ : BufTy).Contents (Elt F) → (⟨S8192x1, .i32⟩ : BufTy).Contents (Elt F) → (⟨S8192x1024, .f32⟩ : BufTy).Contents (Elt F)),
    StableHlo.reshape main_v89 main_v90 rfl shapeCasts_S8192x1024_S1024x8x1024,
    StableHlo.unary main_arg1 main_v91 (broadcastInDim S1024x8x1 ![0, 1] bcast_S1024x8_S1024x8x1_0_1 : (⟨S1024x8, .f32⟩ : BufTy).Contents (Elt F) → (⟨S1024x8x1, .f32⟩ : BufTy).Contents (Elt F)),
    StableHlo.unary main_v91 main_v92 (broadcastInDim S1024x8x1024 ![0, 1, 2] bcast_S1024x8x1_S1024x8x1024_0_1_2 : (⟨S1024x8x1, .f32⟩ : BufTy).Contents (Elt F) → (⟨S1024x8x1024, .f32⟩ : BufTy).Contents (Elt F)),
    StableHlo.binary main_v90 main_v92 main_v93 (mulf : (⟨S1024x8x1024, .f32⟩ : BufTy).Contents (Elt F) → (⟨S1024x8x1024, .f32⟩ : BufTy).Contents (Elt F) → (⟨S1024x8x1024, .f32⟩ : BufTy).Contents (Elt F)),
    StableHlo.nullary main_cst_24 (constant S_ .f32 0x00000000#32),
    StableHlo.binary main_v93 main_cst_24 main_v94 ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) ]
theorem opsC2_sub : (opsC2 : List (HloOp τ sig (Elt F))).Forall fun op => op.bufs ⊆ StableHlo.tcRefs τ sig :=
  ⟨StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.unary_bufs_sub .., StableHlo.unary_bufs_sub .., StableHlo.binary_bufs_sub .., StableHlo.nullary_bufs_sub .., StableHlo.binary_bufs_sub ..⟩

end Cert.ReferenceIdeal.Ops

end
-- ==== Proof.Spec.lean ====
/-
  The mathematics both programs compute between dispatch and combine: a bank of 64 independent
  gated MLPs. Expert `e` sees its own 512 slots `x[e, c, ·]` (1024 features each), projects them with
  its 1536 × 1024 matrix `w1[e]` to a hidden row whose first half is the gate `g` and second half the
  value `u`, forms `(g · σ(g)) · u` with `σ` the logistic function, and projects back with the
  1024 × 768 matrix `w2[e]`. Everything is over the extended reals; no operand is assumed finite:
  only commutative-monoid facts about finite sums are used downstream, never distributivity.
-/
import Idealize.ShloMosaic.PureOps.Ideal
import Idealize.ShloMosaic.Lib.ValueIdx

noncomputable section

namespace Cert.Moe

open Idealize.ShloMosaic Idealize.ShloMosaic.ValueIdx

/-- Slot buffers and results: expert × slot × feature. -/
abbrev SX : Shape := ⟨3, ![64, 512, 1024]⟩
/-- First projection: expert × hidden (gate rows then value rows) × feature. -/
abbrev SW1 : Shape := ⟨3, ![64, 1536, 1024]⟩
/-- Second projection: expert × feature × hidden. -/
abbrev SW2 : Shape := ⟨3, ![64, 1024, 768]⟩

/-- Hidden pre-activation `∑ₖ x[e, c, k] · w1[e, f, k]`. -/
def hid (x : SX.Idx → EReal) (w1 : SW1.Idx → EReal) (e : Fin 64) (c : Fin 512) (f : Fin 1536) : EReal :=
  ∑ k : Fin 1024, x (ix3 e c k) * w1 (ix3 e f k)

/-- The gate half of the hidden row: entries `0 … 767`. -/
def gate (x : SX.Idx → EReal) (w1 : SW1.Idx → EReal) (e : Fin 64) (c : Fin 512) (f : Fin 768) : EReal :=
  hid x w1 e c ⟨f.val, by have := f.isLt; omega⟩

/-- The value half: entries `768 … 1535`. -/
def up (x : SX.Idx → EReal) (w1 : SW1.Idx → EReal) (e : Fin 64) (c : Fin 512) (f : Fin 768) : EReal :=
  hid x w1 e c ⟨768 + f.val, by have := f.isLt; omega⟩

/-- The gated activation `(g · σ(g)) · u`. -/
def act (x : SX.Idx → EReal) (w1 : SW1.Idx → EReal) (e : Fin 64) (c : Fin 512) (f : Fin 768) : EReal :=
  (gate x w1 e c f * Ideal.logistic (gate x w1 e c f)) * up x w1 e c f

/-- One output entry: `∑_f act[e, c, f] · w2[e, h, f]`. -/
def mlpAt (x : SX.Idx → EReal) (w1 : SW1.Idx → EReal) (w2 : SW2.Idx → EReal) (e : Fin 64) (c : Fin 512) (h : Fin 1024) : EReal :=
  ∑ f : Fin 768, act x w1 e c f * w2 (ix3 e h f)

/-- The whole bank as one array. -/
def mlp (x : SX.Idx → EReal) (w1 : SW1.Idx → EReal) (w2 : SW2.Idx → EReal) : SX.Idx → EReal :=
  fun i => mlpAt x w1 w2 (i 0) (i 1) (i 2)

end Cert.Moe

end
-- ==== Proof.GlueD1.lean ====
/-
  Dispatch, first stretch. Both programs compute, by the same host operations over differently numbered buffers, the
  sorting permutation of the routed pairs, their sorted expert ids, their positions within their expert's group, the
  gathered token rows and the two index columns: each is one function of the token rows and the expert ids.
-/
import proofs.«152988_j58317065945110_1_alg».proof.Proof.Gen.KernelIdeal.Frame
import proofs.«152988_j58317065945110_1_alg».proof.Proof.KerOps
import proofs.«152988_j58317065945110_1_alg».proof.Proof.RefOps
import proofs.«152988_j58317065945110_1_alg».proof.Proof.Spec
import Idealize.ShloMosaic.Lib.StableHlo.Run
import Idealize.ShloMosaic.Lib.Pipeline.Frame
import Idealize.ShloMosaic.PureOps.Ideal

set_option Elab.async false

noncomputable section

namespace Cert.Glue

open Idealize.ShloMosaic Idealize.ShloMosaic.TcCoe Idealize.SL.Sem Idealize.ShloMosaic.StableHlo

/-! ## Dispatch, first stretch: every table the later lines read is one function of the token rows and the expert ids -/

attribute [local irreducible] Host.gather Host.scatter Host.sort2 Host.reduceWindow Host.reduce Host.reduceAdd Host.divsi Host.remsi in
set_option maxRecDepth 16384 in
set_option maxHeartbeats 4000000 in
theorem d1_v1 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v1 : DevRef Cert.KernelIdeal.τ Cert.KernelIdeal.sig) = after Cert.ReferenceIdeal.Ops.opsA1 V' (Cert.ReferenceIdeal.main_v1 : DevRef Cert.ReferenceIdeal.τ Cert.ReferenceIdeal.sig) := by
  after_results_simp
  try rw [h0]
  try rw [h2]
  try rfl

attribute [local irreducible] Host.gather Host.scatter Host.sort2 Host.reduceWindow Host.reduce Host.reduceAdd Host.divsi Host.remsi in
set_option maxRecDepth 16384 in
set_option maxHeartbeats 4000000 in
theorem d1_v8 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v8 : DevRef Cert.KernelIdeal.τ Cert.KernelIdeal.sig) = after Cert.ReferenceIdeal.Ops.opsA1 V' (Cert.ReferenceIdeal.main_v8 : DevRef Cert.ReferenceIdeal.τ Cert.ReferenceIdeal.sig) := by
  after_results_simp
  try rw [h0]
  try rw [h2]
  try rfl

attribute [local irreducible] Host.gather Host.scatter Host.sort2 Host.reduceWindow Host.reduce Host.reduceAdd Host.divsi Host.remsi in
set_option maxRecDepth 16384 in
set_option maxHeartbeats 4000000 in
theorem d1_v28 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v28 : DevRef Cert.KernelIdeal.τ Cert.KernelIdeal.sig) = after Cert.ReferenceIdeal.Ops.opsA1 V' (Cert.ReferenceIdeal.main_v28 : DevRef Cert.ReferenceIdeal.τ Cert.ReferenceIdeal.sig) := by
  after_results_simp
  try rw [h0]
  try rw [h2]
  try rfl

attribute [local irreducible] Host.gather Host.scatter Host.sort2 Host.reduceWindow Host.reduce Host.reduceAdd Host.divsi Host.remsi in
set_option maxRecDepth 16384 in
set_option maxHeartbeats 4000000 in
theorem d1_v36 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v36 : DevRef Cert.KernelIdeal.τ Cert.KernelIdeal.sig) = after Cert.ReferenceIdeal.Ops.opsA1 V' (Cert.ReferenceIdeal.main_v36 : DevRef Cert.ReferenceIdeal.τ Cert.ReferenceIdeal.sig) := by
  after_results_simp
  try rw [h0]
  try rw [h2]
  try rfl

attribute [local irreducible] Host.gather Host.scatter Host.sort2 Host.reduceWindow Host.reduce Host.reduceAdd Host.divsi Host.remsi in
set_option maxRecDepth 16384 in
set_option maxHeartbeats 4000000 in
theorem d1_v37 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v37 : DevRef Cert.KernelIdeal.τ Cert.KernelIdeal.sig) = after Cert.ReferenceIdeal.Ops.opsA1 V' (Cert.ReferenceIdeal.main_v37 : DevRef Cert.ReferenceIdeal.τ Cert.ReferenceIdeal.sig) := by
  after_results_simp
  try rw [h0]
  try rw [h2]
  try rfl

attribute [local irreducible] Host.gather Host.scatter Host.sort2 Host.reduceWindow Host.reduce Host.reduceAdd Host.divsi Host.remsi in
set_option maxRecDepth 16384 in
set_option maxHeartbeats 4000000 in
theorem d1_v48 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v48 : DevRef Cert.KernelIdeal.τ Cert.KernelIdeal.sig) = after Cert.ReferenceIdeal.Ops.opsA1 V' (Cert.ReferenceIdeal.main_v48 : DevRef Cert.ReferenceIdeal.τ Cert.ReferenceIdeal.sig) := by
  after_results_simp
  try rw [h0]
  try rw [h2]
  try rfl

attribute [local irreducible] Host.gather Host.scatter Host.sort2 Host.reduceWindow Host.reduce Host.reduceAdd Host.divsi Host.remsi in
set_option maxRecDepth 16384 in
set_option maxHeartbeats 4000000 in
theorem d1_v49 (V : Valuation Cert.KernelIdeal.τ Cert.KernelIdeal.sig (Elt Ideal)) (V' : Valuation Cert.ReferenceIdeal.τ Cert.ReferenceIdeal.sig (Elt Ideal))
    (h0 : V (Cert.KernelIdeal.main_arg0 : DevRef Cert.KernelIdeal.τ Cert.KernelIdeal.sig) = V' (Cert.ReferenceIdeal.main_arg0 : DevRef Cert.ReferenceIdeal.τ Cert.ReferenceIdeal.sig)) (h2 : V (Cert.KernelIdeal.main_arg2 : DevRef Cert.KernelIdeal.τ Cert.KernelIdeal.sig) = V' (Cert.ReferenceIdeal.main_arg2 : DevRef Cert.ReferenceIdeal.τ Cert.ReferenceIdeal.sig)) :
    after Cert.KernelIdeal.Ops.kA1 V (Cert.KernelIdeal.main_v49 : DevRef Cert.KernelIdeal.τ Cert.KernelIdeal.sig) = after Cert.ReferenceIdeal.Ops.opsA1 V' (Cert.ReferenceIdeal.main_v49 : DevRef Cert.ReferenceIdeal.τ Cert.ReferenceIdeal.sig) := by
  after_results_simp
  try rw [h0]
  try rw [h2]
  try rfl

end Cert.Glue

end
-- ==== Proof.GlueD2.lean ====
/-
  The kernel program's host lines cut in front of the line that lays the two index columns side by side; dispatch's
  last lines (the scatter into the slot buffers; in the kernel program also three format changes, the identity at the
  ideal values); and the buffers each stretch of either program leaves alone.
-/
import proofs.«152988_j58317065945110_1_alg».proof.Proof.Gen.KernelIdeal.Frame
import proofs.«152988_j58317065945110_1_alg».proof.Proof.KerOps
import proofs.«152988_j58317065945110_1_alg».proof.Proof.RefOps
import proofs.«152988_j58317065945110_1_alg».proof.Proof.Spec
import Idealize.ShloMosaic.Lib.StableHlo.Run
import Idealize.ShloMosaic.Lib.Pipeline.Frame
import Idealize.ShloMosaic.PureOps.Ideal

set_option Elab.async false

noncomputable section

namespace Cert.Glue

open Idealize.ShloMosaic Idealize.ShloMosaic.TcCoe Idealize.SL.Sem Idealize.ShloMosaic.StableHlo

/-! ## The kernel program's host lines, cut -/

theorem kpre_eq : (List.flatten [Cert.KernelIdeal.Gen.hostOps0, Cert.KernelIdeal.Gen.hostOps0_1, Cert.KernelIdeal.Gen.hostOps0_2, Cert.KernelIdeal.Gen.hostOps0_3,
      Cert.KernelIdeal.Gen.hostOps0_4, Cert.KernelIdeal.Gen.hostOps0_5, Cert.KernelIdeal.Gen.hostOps0_6] : List (HloOp Cert.KernelIdeal.τ Cert.KernelIdeal.sig (Elt Ideal)))
    = Cert.KernelIdeal.Ops.kA1 ++ Cert.KernelIdeal.Ops.kA2 := rfl

theorem ktail_eq : (List.flatten [Cert.KernelIdeal.Gen.hostOps1, Cert.KernelIdeal.Gen.hostOps1_1, Cert.KernelIdeal.Gen.hostOps1_2] : List (HloOp Cert.KernelIdeal.τ Cert.KernelIdeal.sig (Elt Ideal)))
    = Cert.KernelIdeal.Ops.kC1 ++ Cert.KernelIdeal.Ops.kC2 := rfl

/-! ## Dispatch, last lines -/

attribute [local irreducible] Host.gather Host.scatter Host.sort2 Host.reduceWindow Host.reduce Host.reduceAdd Host.divsi Host.remsi in
set_option maxRecDepth 16384 in
set_option maxHeartbeats 4000000 in
theorem d2_buf (U : Valuation Cert.KernelIdeal.τ Cert.KernelIdeal.sig (Elt Ideal)) (U' : Valuation Cert.ReferenceIdeal.τ Cert.ReferenceIdeal.sig (Elt Ideal))
    (h36 : U (Cert.KernelIdeal.main_v36 : DevRef Cert.KernelIdeal.τ Cert.KernelIdeal.sig) = U' (Cert.ReferenceIdeal.main_v36 : DevRef Cert.ReferenceIdeal.τ Cert.ReferenceIdeal.sig)) (h37 : U (Cert.KernelIdeal.main_v37 : DevRef Cert.KernelIdeal.τ Cert.KernelIdeal.sig) = U' (Cert.ReferenceIdeal.main_v37 : DevRef Cert.ReferenceIdeal.τ Cert.ReferenceIdeal.sig))
    (h48 : U (Cert.KernelIdeal.main_v48 : DevRef Cert.KernelIdeal.τ Cert.KernelIdeal.sig) = U' (Cert.ReferenceIdeal.main_v48 : DevRef Cert.ReferenceIdeal.τ Cert.ReferenceIdeal.sig)) (h49 : U (Cert.KernelIdeal.main_v49 : DevRef Cert.KernelIdeal.τ Cert.KernelIdeal.sig) = U' (Cert.ReferenceIdeal.main_v49 : DevRef Cert.ReferenceIdeal.τ Cert.ReferenceIdeal.sig)) :
    (after Cert.KernelIdeal.Ops.kA2 U (Cert.KernelIdeal.main_v52 : DevRef Cert.KernelIdeal.τ Cert.KernelIdeal.sig) : Cert.Moe.SX.Idx → EReal) = after Cert.ReferenceIdeal.Ops.opsA2 U' (Cert.ReferenceIdeal.main_v51 : DevRef Cert.ReferenceIdeal.τ Cert.ReferenceIdeal.sig) := by
  after_results_simp
  rw [h36, h37, h48, h49]
  funext i
  simp only [truncf, Ideal.truncf_def]
  rfl

theorem d2_w1 (U : Valuation Cert.KernelIdeal.τ Cert.KernelIdeal.sig (Elt Ideal)) :
    (after Cert.KernelIdeal.Ops.kA2 U (Cert.KernelIdeal.main_v53 : DevRef Cert.KernelIdeal.τ Cert.KernelIdeal.sig) : Cert.Moe.SW1.Idx → EReal) = U (Cert.KernelIdeal.main_arg3 : DevRef Cert.KernelIdeal.τ Cert.KernelIdeal.sig) := by
  after_results_simp
  rfl

theorem d2_w2 (U : Valuation Cert.KernelIdeal.τ Cert.KernelIdeal.sig (Elt Ideal)) :
    (after Cert.KernelIdeal.Ops.kA2 U (Cert.KernelIdeal.main_v54 : DevRef Cert.KernelIdeal.τ Cert.KernelIdeal.sig) : Cert.Moe.SW2.Idx → EReal) = U (Cert.KernelIdeal.main_arg4 : DevRef Cert.KernelIdeal.τ Cert.KernelIdeal.sig) := by
  after_results_simp
  rfl

/-! ## What each stretch leaves alone -/

theorem kA1_keeps_arg1 (U : Valuation Cert.KernelIdeal.τ Cert.KernelIdeal.sig (Elt Ideal)) : after Cert.KernelIdeal.Ops.kA1 U (Cert.KernelIdeal.main_arg1 : DevRef Cert.KernelIdeal.τ Cert.KernelIdeal.sig) = U (Cert.KernelIdeal.main_arg1 : DevRef Cert.KernelIdeal.τ Cert.KernelIdeal.sig) := by
  after_results_simp

theorem kA1_keeps_arg3 (U : Valuation Cert.KernelIdeal.τ Cert.KernelIdeal.sig (Elt Ideal)) : after Cert.KernelIdeal.Ops.kA1 U (Cert.KernelIdeal.main_arg3 : DevRef Cert.KernelIdeal.τ Cert.KernelIdeal.sig) = U (Cert.KernelIdeal.main_arg3 : DevRef Cert.KernelIdeal.τ Cert.KernelIdeal.sig) := by
  after_results_simp

theorem kA1_keeps_arg4 (U : Valuation Cert.KernelIdeal.τ Cert.KernelIdeal.sig (Elt Ideal)) : after Cert.KernelIdeal.Ops.kA1 U (Cert.KernelIdeal.main_arg4 : DevRef Cert.KernelIdeal.τ Cert.KernelIdeal.sig) = U (Cert.KernelIdeal.main_arg4 : DevRef Cert.KernelIdeal.τ Cert.KernelIdeal.sig) := by
  after_results_simp

theorem kA2_keeps_v1 (U : Valuation Cert.KernelIdeal.τ Cert.KernelIdeal.sig (Elt Ideal)) : after Cert.KernelIdeal.Ops.kA2 U (Cert.KernelIdeal.main_v1 : DevRef Cert.KernelIdeal.τ Cert.KernelIdeal.sig) = U (Cert.KernelIdeal.main_v1 : DevRef Cert.KernelIdeal.τ Cert.KernelIdeal.sig) := by
  after_results_simp

theorem kA2_keeps_v8 (U : Valuation Cert.KernelIdeal.τ Cert.KernelIdeal.sig (Elt Ideal)) : after Cert.KernelIdeal.Ops.kA2 U (Cert.KernelIdeal.main_v8 : DevRef Cert.KernelIdeal.τ Cert.KernelIdeal.sig) = U (Cert.KernelIdeal.main_v8 : DevRef Cert.KernelIdeal.τ Cert.KernelIdeal.sig) := by
  after_results_simp

theorem kA2_keeps_v28 (U : Valuation Cert.KernelIdeal.τ Cert.KernelIdeal.sig (Elt Ideal)) : after Cert.KernelIdeal.Ops.kA2 U (Cert.KernelIdeal.main_v28 : DevRef Cert.KernelIdeal.τ Cert.KernelIdeal.sig) = U (Cert.KernelIdeal.main_v28 : DevRef Cert.KernelIdeal.τ Cert.KernelIdeal.sig) := by
  after_results_simp

theorem kA2_keeps_arg1 (U : Valuation Cert.KernelIdeal.τ Cert.KernelIdeal.sig (Elt Ideal)) : after Cert.KernelIdeal.Ops.kA2 U (Cert.KernelIdeal.main_arg1 : DevRef Cert.KernelIdeal.τ Cert.KernelIdeal.sig) = U (Cert.KernelIdeal.main_arg1 : DevRef Cert.KernelIdeal.τ Cert.KernelIdeal.sig) := by
  after_results_simp

theorem kC1_keeps_v55 (U : Valuation Cert.KernelIdeal.τ Cert.KernelIdeal.sig (Elt Ideal)) : after Cert.KernelIdeal.Ops.kC1 U (Cert.KernelIdeal.main_v55 : DevRef Cert.KernelIdeal.τ Cert.KernelIdeal.sig) = U (Cert.KernelIdeal.main_v55 : DevRef Cert.KernelIdeal.τ Cert.KernelIdeal.sig) := by
  after_results_simp

theorem kC1_keeps_v1 (U : Valuation Cert.KernelIdeal.τ Cert.KernelIdeal.sig (Elt Ideal)) : after Cert.KernelIdeal.Ops.kC1 U (Cert.KernelIdeal.main_v1 : DevRef Cert.KernelIdeal.τ Cert.KernelIdeal.sig) = U (Cert.KernelIdeal.main_v1 : DevRef Cert.KernelIdeal.τ Cert.KernelIdeal.sig) := by
  after_results_simp

theorem kC1_keeps_arg1 (U : Valuation Cert.KernelIdeal.τ Cert.KernelIdeal.sig (Elt Ideal)) : after Cert.KernelIdeal.Ops.kC1 U (Cert.KernelIdeal.main_arg1 : DevRef Cert.KernelIdeal.τ Cert.KernelIdeal.sig) = U (Cert.KernelIdeal.main_arg1 : DevRef Cert.KernelIdeal.τ Cert.KernelIdeal.sig) := by
  after_results_simp

theorem opsA1_keeps_arg1 (U : Valuation Cert.ReferenceIdeal.τ Cert.ReferenceIdeal.sig (Elt Ideal)) : after Cert.ReferenceIdeal.Ops.opsA1 U (Cert.ReferenceIdeal.main_arg1 : DevRef Cert.ReferenceIdeal.τ Cert.ReferenceIdeal.sig) = U (Cert.ReferenceIdeal.main_arg1 : DevRef Cert.ReferenceIdeal.τ Cert.ReferenceIdeal.sig) := by
  after_results_simp

theorem opsA1_keeps_arg3 (U : Valuation Cert.ReferenceIdeal.τ Cert.ReferenceIdeal.sig (Elt Ideal)) : after Cert.ReferenceIdeal.Ops.opsA1 U (Cert.ReferenceIdeal.main_arg3 : DevRef Cert.ReferenceIdeal.τ Cert.ReferenceIdeal.sig) = U (Cert.ReferenceIdeal.main_arg3 : DevRef Cert.ReferenceIdeal.τ Cert.ReferenceIdeal.sig) := by
  after_results_simp

theorem opsA1_keeps_arg4 (U : Valuation Cert.ReferenceIdeal.τ Cert.ReferenceIdeal.sig (Elt Ideal)) : after Cert.ReferenceIdeal.Ops.opsA1 U (Cert.ReferenceIdeal.main_arg4 : DevRef Cert.ReferenceIdeal.τ Cert.ReferenceIdeal.sig) = U (Cert.ReferenceIdeal.main_arg4 : DevRef Cert.ReferenceIdeal.τ Cert.ReferenceIdeal.sig) := by
  after_results_simp

theorem opsA2_keeps_v1 (U : Valuation Cert.ReferenceIdeal.τ Cert.ReferenceIdeal.sig (Elt Ideal)) : after Cert.ReferenceIdeal.Ops.opsA2 U (Cert.ReferenceIdeal.main_v1 : DevRef Cert.ReferenceIdeal.τ Cert.ReferenceIdeal.sig) = U (Cert.ReferenceIdeal.main_v1 : DevRef Cert.ReferenceIdeal.τ Cert.ReferenceIdeal.sig) := by
  after_results_simp

theorem opsA2_keeps_v8 (U : Valuation Cert.ReferenceIdeal.τ Cert.ReferenceIdeal.sig (Elt Ideal)) : after Cert.ReferenceIdeal.Ops.opsA2 U (Cert.ReferenceIdeal.main_v8 : DevRef Cert.ReferenceIdeal.τ Cert.ReferenceIdeal.sig) = U (Cert.ReferenceIdeal.main_v8 : DevRef Cert.ReferenceIdeal.τ Cert.ReferenceIdeal.sig) := by
  after_results_simp

theorem opsA2_keeps_v28 (U : Valuation Cert.ReferenceIdeal.τ Cert.ReferenceIdeal.sig (Elt Ideal)) : after Cert.ReferenceIdeal.Ops.opsA2 U (Cert.ReferenceIdeal.main_v28 : DevRef Cert.ReferenceIdeal.τ Cert.ReferenceIdeal.sig) = U (Cert.ReferenceIdeal.main_v28 : DevRef Cert.ReferenceIdeal.τ Cert.ReferenceIdeal.sig) := by
  after_results_simp

theorem opsA2_keeps_arg1 (U : Valuation Cert.ReferenceIdeal.τ Cert.ReferenceIdeal.sig (Elt Ideal)) : after Cert.ReferenceIdeal.Ops.opsA2 U (Cert.ReferenceIdeal.main_arg1 : DevRef Cert.ReferenceIdeal.τ Cert.ReferenceIdeal.sig) = U (Cert.ReferenceIdeal.main_arg1 : DevRef Cert.ReferenceIdeal.τ Cert.ReferenceIdeal.sig) := by
  after_results_simp

theorem opsA2_keeps_arg3 (U : Valuation Cert.ReferenceIdeal.τ Cert.ReferenceIdeal.sig (Elt Ideal)) : after Cert.ReferenceIdeal.Ops.opsA2 U (Cert.ReferenceIdeal.main_arg3 : DevRef Cert.ReferenceIdeal.τ Cert.ReferenceIdeal.sig) = U (Cert.ReferenceIdeal.main_arg3 : DevRef Cert.ReferenceIdeal.τ Cert.ReferenceIdeal.sig) := by
  after_results_simp

theorem opsA2_keeps_arg4 (U : Valuation Cert.ReferenceIdeal.τ Cert.ReferenceIdeal.sig (Elt Ideal)) : after Cert.ReferenceIdeal.Ops.opsA2 U (Cert.ReferenceIdeal.main_arg4 : DevRef Cert.ReferenceIdeal.τ Cert.ReferenceIdeal.sig) = U (Cert.ReferenceIdeal.main_arg4 : DevRef Cert.ReferenceIdeal.τ Cert.ReferenceIdeal.sig) := by
  after_results_simp

theorem opsB_keeps_v1 (U : Valuation Cert.ReferenceIdeal.τ Cert.ReferenceIdeal.sig (Elt Ideal)) : after Cert.ReferenceIdeal.Ops.opsB U (Cert.ReferenceIdeal.main_v1 : DevRef Cert.ReferenceIdeal.τ Cert.ReferenceIdeal.sig) = U (Cert.ReferenceIdeal.main_v1 : DevRef Cert.ReferenceIdeal.τ Cert.ReferenceIdeal.sig) := by
  after_results_simp

theorem opsB_keeps_v8 (U : Valuation Cert.ReferenceIdeal.τ Cert.ReferenceIdeal.sig (Elt Ideal)) : after Cert.ReferenceIdeal.Ops.opsB U (Cert.ReferenceIdeal.main_v8 : DevRef Cert.ReferenceIdeal.τ Cert.ReferenceIdeal.sig) = U (Cert.ReferenceIdeal.main_v8 : DevRef Cert.ReferenceIdeal.τ Cert.ReferenceIdeal.sig) := by
  after_results_simp

theorem opsB_keeps_v28 (U : Valuation Cert.ReferenceIdeal.τ Cert.ReferenceIdeal.sig (Elt Ideal)) : after Cert.ReferenceIdeal.Ops.opsB U (Cert.ReferenceIdeal.main_v28 : DevRef Cert.ReferenceIdeal.τ Cert.ReferenceIdeal.sig) = U (Cert.ReferenceIdeal.main_v28 : DevRef Cert.ReferenceIdeal.τ Cert.ReferenceIdeal.sig) := by
  after_results_simp

theorem opsB_keeps_arg1 (U : Valuation Cert.ReferenceIdeal.τ Cert.ReferenceIdeal.sig (Elt Ideal)) : after Cert.ReferenceIdeal.Ops.opsB U (Cert.ReferenceIdeal.main_arg1 : DevRef Cert.ReferenceIdeal.τ Cert.ReferenceIdeal.sig) = U (Cert.ReferenceIdeal.main_arg1 : DevRef Cert.ReferenceIdeal.τ Cert.ReferenceIdeal.sig) := by
  after_results_simp

theorem opsC1_keeps_v57 (U : Valuation Cert.ReferenceIdeal.τ Cert.ReferenceIdeal.sig (Elt Ideal)) : after Cert.ReferenceIdeal.Ops.opsC1 U (Cert.ReferenceIdeal.main_v57 : DevRef Cert.ReferenceIdeal.τ Cert.ReferenceIdeal.sig) = U (Cert.ReferenceIdeal.main_v57 : DevRef Cert.ReferenceIdeal.τ Cert.ReferenceIdeal.sig) := by
  after_results_simp

theorem opsC1_keeps_v1 (U : Valuation Cert.ReferenceIdeal.τ Cert.ReferenceIdeal.sig (Elt Ideal)) : after Cert.ReferenceIdeal.Ops.opsC1 U (Cert.ReferenceIdeal.main_v1 : DevRef Cert.ReferenceIdeal.τ Cert.ReferenceIdeal.sig) = U (Cert.ReferenceIdeal.main_v1 : DevRef Cert.ReferenceIdeal.τ Cert.ReferenceIdeal.sig) := by
  after_results_simp

theorem opsC1_keeps_arg1 (U : Valuation Cert.ReferenceIdeal.τ Cert.ReferenceIdeal.sig (Elt Ideal)) : after Cert.ReferenceIdeal.Ops.opsC1 U (Cert.ReferenceIdeal.main_arg1 : DevRef Cert.ReferenceIdeal.τ Cert.ReferenceIdeal.sig) = U (Cert.ReferenceIdeal.main_arg1 : DevRef Cert.ReferenceIdeal.τ Cert.ReferenceIdeal.sig) := by
  after_results_simp

end Cert.Glue

end
-- ==== Proof.GlueC.lean ====
/-
  Combine. From contents that agree on the per-slot results, the routing tables and the routing weights, both programs'
  remaining lines end at one result: the index columns first, then the gather, the un-sorting and the weighted sum.
-/
import proofs.«152988_j58317065945110_1_alg».proof.Proof.Gen.KernelIdeal.Frame
import proofs.«152988_j58317065945110_1_alg».proof.Proof.KerOps
import proofs.«152988_j58317065945110_1_alg».proof.Proof.RefOps
import proofs.«152988_j58317065945110_1_alg».proof.Proof.Spec
import Idealize.ShloMosaic.Lib.StableHlo.Run
import Idealize.ShloMosaic.Lib.Pipeline.Frame
import Idealize.ShloMosaic.PureOps.Ideal

set_option Elab.async false

noncomputable section

namespace Cert.Glue

open Idealize.ShloMosaic Idealize.ShloMosaic.TcCoe Idealize.SL.Sem Idealize.ShloMosaic.StableHlo

/-! ## Combine -/

attribute [local irreducible] Host.gather Host.scatter Host.sort2 Host.reduceWindow Host.reduce Host.reduceAdd Host.divsi Host.remsi in
set_option maxRecDepth 16384 in
set_option maxHeartbeats 4000000 in
theorem c1_ids (W : Valuation Cert.KernelIdeal.τ Cert.KernelIdeal.sig (Elt Ideal)) (W' : Valuation Cert.ReferenceIdeal.τ Cert.ReferenceIdeal.sig (Elt Ideal))
    (hs : W (Cert.KernelIdeal.main_v8 : DevRef Cert.KernelIdeal.τ Cert.KernelIdeal.sig) = W' (Cert.ReferenceIdeal.main_v8 : DevRef Cert.ReferenceIdeal.τ Cert.ReferenceIdeal.sig)) :
    after Cert.KernelIdeal.Ops.kC1 W (Cert.KernelIdeal.main_v66 : DevRef Cert.KernelIdeal.τ Cert.KernelIdeal.sig) = after Cert.ReferenceIdeal.Ops.opsC1 W' (Cert.ReferenceIdeal.main_v68 : DevRef Cert.ReferenceIdeal.τ Cert.ReferenceIdeal.sig) := by
  after_results_simp
  rw [hs]
  try rfl

attribute [local irreducible] Host.gather Host.scatter Host.sort2 Host.reduceWindow Host.reduce Host.reduceAdd Host.divsi Host.remsi in
set_option maxRecDepth 16384 in
set_option maxHeartbeats 4000000 in
theorem c1_pos (W : Valuation Cert.KernelIdeal.τ Cert.KernelIdeal.sig (Elt Ideal)) (W' : Valuation Cert.ReferenceIdeal.τ Cert.ReferenceIdeal.sig (Elt Ideal))
    (hp : W (Cert.KernelIdeal.main_v28 : DevRef Cert.KernelIdeal.τ Cert.KernelIdeal.sig) = W' (Cert.ReferenceIdeal.main_v28 : DevRef Cert.ReferenceIdeal.τ Cert.ReferenceIdeal.sig)) :
    after Cert.KernelIdeal.Ops.kC1 W (Cert.KernelIdeal.main_v67 : DevRef Cert.KernelIdeal.τ Cert.KernelIdeal.sig) = after Cert.ReferenceIdeal.Ops.opsC1 W' (Cert.ReferenceIdeal.main_v69 : DevRef Cert.ReferenceIdeal.τ Cert.ReferenceIdeal.sig) := by
  after_results_simp
  rw [hp]
  try rfl

attribute [local irreducible] Host.gather Host.scatter Host.sort2 Host.reduceWindow Host.reduce Host.reduceAdd Host.divsi Host.remsi in
set_option maxRecDepth 16384 in
set_option maxHeartbeats 4000000 in
theorem c2_out (X : Valuation Cert.KernelIdeal.τ Cert.KernelIdeal.sig (Elt Ideal)) (X' : Valuation Cert.ReferenceIdeal.τ Cert.ReferenceIdeal.sig (Elt Ideal))
    (hy : X (Cert.KernelIdeal.main_v55 : DevRef Cert.KernelIdeal.τ Cert.KernelIdeal.sig) = X' (Cert.ReferenceIdeal.main_v57 : DevRef Cert.ReferenceIdeal.τ Cert.ReferenceIdeal.sig)) (h66 : X (Cert.KernelIdeal.main_v66 : DevRef Cert.KernelIdeal.τ Cert.KernelIdeal.sig) = X' (Cert.ReferenceIdeal.main_v68 : DevRef Cert.ReferenceIdeal.τ Cert.ReferenceIdeal.sig))
    (h67 : X (Cert.KernelIdeal.main_v67 : DevRef Cert.KernelIdeal.τ Cert.KernelIdeal.sig) = X' (Cert.ReferenceIdeal.main_v69 : DevRef Cert.ReferenceIdeal.τ Cert.ReferenceIdeal.sig)) (ho : X (Cert.KernelIdeal.main_v1 : DevRef Cert.KernelIdeal.τ Cert.KernelIdeal.sig) = X' (Cert.ReferenceIdeal.main_v1 : DevRef Cert.ReferenceIdeal.τ Cert.ReferenceIdeal.sig))
    (hw : X (Cert.KernelIdeal.main_arg1 : DevRef Cert.KernelIdeal.τ Cert.KernelIdeal.sig) = X' (Cert.ReferenceIdeal.main_arg1 : DevRef Cert.ReferenceIdeal.τ Cert.ReferenceIdeal.sig)) :
    after Cert.KernelIdeal.Ops.kC2 X (Cert.KernelIdeal.main_v92 : DevRef Cert.KernelIdeal.τ Cert.KernelIdeal.sig) = after Cert.ReferenceIdeal.Ops.opsC2 X' (Cert.ReferenceIdeal.main_v94 : DevRef Cert.ReferenceIdeal.τ Cert.ReferenceIdeal.sig) := by
  after_results_simp
  rw [hy, h66, h67, ho, hw]
  try rfl

end Cert.Glue

end
-- ==== Proof.KerVal.lean ====
/-
  The kernel's side of the bridge: one grid point per expert. At point `t` the body multiplies the slot slab
  `x[t]` (512 × 1024) with the first projection's slab `w1[t]` (1536 × 1024) along the feature axis, splits the
  512 × 1536 hidden rows into the gate half (columns 0 … 767) and the value half (columns 768 … 1535), forms
  `(g · σ(g)) · u`, and multiplies with the second projection's slab `w2[t]` (1024 × 768) along the hidden axis.
  Read entry by entry this is the bank's closed form on slab `t`; the 64 slabs tile the output array, so the array
  ends holding the bank's result. Only re-indexing of finite sums is used.
-/
import proofs.«152988_j58317065945110_1_alg».proof.Proof.Gen.KernelIdeal.Frame
import proofs.«152988_j58317065945110_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KV

open Cert.KernelIdeal Cert.KernelIdeal.Gen Idealize.ShloMosaic.ValueIdx

variable (m : (ℓ : Loc nD τ sig) → Buf (Elt Ideal) ℓ)

/-! ## The two contractions read at an index

Both contract the operands' second axes; the free axes are the first of each, in the order left, right. -/

/-- First contraction, left operand, free axis: the output's row. -/
theorem lhsA_0 (i : S512x1536.Idx) (q : dot_S512x1024_S1536x1024_S512x1536_1_1_0_0_n_n.contr.Idx) :
    (dot_S512x1024_S1536x1024_S512x1536_1_1_0_0_n_n.lhsIdx i q 0).val = (i 0).val := by
  unfold DotDims.lhsIdx
  rw [dif_neg (show ¬(0 : Fin S512x1024.rank) ∈ dot_S512x1024_S1536x1024_S512x1536_1_1_0_0_n_n.lhsBatch by decide),
    dif_pos (show (0 : Fin S512x1024.rank) ∈ dot_S512x1024_S1536x1024_S512x1536_1_1_0_0_n_n.lhsNonContracting by decide)]
  rfl
/-- First contraction, left operand, contracted axis. -/
theorem lhsA_1 (i : S512x1536.Idx) (q : dot_S512x1024_S1536x1024_S512x1536_1_1_0_0_n_n.contr.Idx) :
    (dot_S512x1024_S1536x1024_S512x1536_1_1_0_0_n_n.lhsIdx i q 1).val = (q ⟨0, by decide⟩).val :=
  dot_S512x1024_S1536x1024_S512x1536_1_1_0_0_n_n.lhsIdx_val_of_single rfl i q
/-- First contraction, right operand, free axis: the output's column. -/
theorem rhsA_0 (i : S512x1536.Idx) (q : dot_S512x1024_S1536x1024_S512x1536_1_1_0_0_n_n.contr.Idx) :
    (dot_S512x1024_S1536x1024_S512x1536_1_1_0_0_n_n.rhsIdx i q 0).val = (i 1).val := by
  unfold DotDims.rhsIdx
  rw [dif_neg (show ¬(0 : Fin S1536x1024.rank) ∈ dot_S512x1024_S1536x1024_S512x1536_1_1_0_0_n_n.rhsBatch by decide),
    dif_pos (show (0 : Fin S1536x1024.rank) ∈ dot_S512x1024_S1536x1024_S512x1536_1_1_0_0_n_n.rhsNonContracting by decide)]
  rfl
/-- First contraction, right operand, contracted axis. -/
theorem rhsA_1 (i : S512x1536.Idx) (q : dot_S512x1024_S1536x1024_S512x1536_1_1_0_0_n_n.contr.Idx) :
    (dot_S512x1024_S1536x1024_S512x1536_1_1_0_0_n_n.rhsIdx i q 1).val = (q ⟨0, by decide⟩).val :=
  dot_S512x1024_S1536x1024_S512x1536_1_1_0_0_n_n.rhsIdx_val_of_single rfl i q

/-- Second contraction, left operand, free axis. -/
theorem lhsB_0 (i : S512x1024.Idx) (q : dot_S512x768_S1024x768_S512x1024_1_1_0_0_n_n.contr.Idx) :
    (dot_S512x768_S1024x768_S512x1024_1_1_0_0_n_n.lhsIdx i q 0).val = (i 0).val := by
  unfold DotDims.lhsIdx
  rw [dif_neg (show ¬(0 : Fin S512x768.rank) ∈ dot_S512x768_S1024x768_S512x1024_1_1_0_0_n_n.lhsBatch by decide),
    dif_pos (show (0 : Fin S512x768.rank) ∈ dot_S512x768_S1024x768_S512x1024_1_1_0_0_n_n.lhsNonContracting by decide)]
  rfl
/-- Second contraction, left operand, contracted axis. -/
theorem lhsB_1 (i : S512x1024.Idx) (q : dot_S512x768_S1024x768_S512x1024_1_1_0_0_n_n.contr.Idx) :
    (dot_S512x768_S1024x768_S512x1024_1_1_0_0_n_n.lhsIdx i q 1).val = (q ⟨0, by decide⟩).val :=
  dot_S512x768_S1024x768_S512x1024_1_1_0_0_n_n.lhsIdx_val_of_single rfl i q
/-- Second contraction, right operand, free axis. -/
theorem rhsB_0 (i : S512x1024.Idx) (q : dot_S512x768_S1024x768_S512x1024_1_1_0_0_n_n.contr.Idx) :
    (dot_S512x768_S1024x768_S512x1024_1_1_0_0_n_n.rhsIdx i q 0).val = (i 1).val := by
  unfold DotDims.rhsIdx
  rw [dif_neg (show ¬(0 : Fin S1024x768.rank) ∈ dot_S512x768_S1024x768_S512x1024_1_1_0_0_n_n.rhsBatch by decide),
    dif_pos (show (0 : Fin S1024x768.rank) ∈ dot_S512x768_S1024x768_S512x1024_1_1_0_0_n_n.rhsNonContracting by decide)]
  rfl
/-- Second contraction, right operand, contracted axis. -/
theorem rhsB_1 (i : S512x1024.Idx) (q : dot_S512x768_S1024x768_S512x1024_1_1_0_0_n_n.contr.Idx) :
    (dot_S512x768_S1024x768_S512x1024_1_1_0_0_n_n.rhsIdx i q 1).val = (q ⟨0, by decide⟩).val :=
  dot_S512x768_S1024x768_S512x1024_1_1_0_0_n_n.rhsIdx_val_of_single rfl i q

/-- The first product into a zero accumulator, entry `(r, f)`: row `r` of the left against row `f` of the right. -/
theorem mmA_apply (a : FVec Ideal S512x1024 .bf16) (b : FVec Ideal S1536x1024 .bf16) (r : Fin 512) (f : Fin 1536) :
    matmul dot_S512x1024_S1536x1024_S512x1536_1_1_0_0_n_n none a b (constant (F := Ideal) S512x1536 .f32 0x00000000#32) (ix2 r f)
      = ∑ k : Fin 1024, a (ix2 r k) * b (ix2 f k) := by
  refine (Ideal.matmul_constant_zero_apply dot_S512x1024_S1536x1024_S512x1536_1_1_0_0_n_n none a b (ix2 r f)).trans ?_
  rw [← Equiv.sum_comp (contrEquiv1 dot_S512x1024_S1536x1024_S512x1536_1_1_0_0_n_n 1024 rfl rfl).symm]
  refine Finset.sum_congr rfl fun k _ => ?_
  have hk := contrEquiv1_symm_val dot_S512x1024_S1536x1024_S512x1536_1_1_0_0_n_n 1024 rfl rfl k
  have el : dot_S512x1024_S1536x1024_S512x1536_1_1_0_0_n_n.lhsIdx (ix2 r f) ((contrEquiv1 dot_S512x1024_S1536x1024_S512x1536_1_1_0_0_n_n 1024 rfl rfl).symm k) = ix2 r k :=
    funext fun ax => Fin.ext (by
      match ax with
      | ⟨0, _⟩ => exact lhsA_0 _ _
      | ⟨1, _⟩ => exact (lhsA_1 _ _).trans hk)
  have er : dot_S512x1024_S1536x1024_S512x1536_1_1_0_0_n_n.rhsIdx (ix2 r f) ((contrEquiv1 dot_S512x1024_S1536x1024_S512x1536_1_1_0_0_n_n 1024 rfl rfl).symm k) = ix2 f k :=
    funext fun ax => Fin.ext (by
      match ax with
      | ⟨0, _⟩ => exact rhsA_0 _ _
      | ⟨1, _⟩ => exact (rhsA_1 _ _).trans hk)
  rw [el, er]

/-- The second product into a zero accumulator, entry `(r, h)`. -/
theorem mmB_apply (a : FVec Ideal S512x768 .bf16) (b : FVec Ideal S1024x768 .bf16) (r : Fin 512) (h : Fin 1024) :
    matmul dot_S512x768_S1024x768_S512x1024_1_1_0_0_n_n none a b (constant (F := Ideal) S512x1024 .f32 0x00000000#32) (ix2 r h)
      = ∑ f : Fin 768, a (ix2 r f) * b (ix2 h f) := by
  refine (Ideal.matmul_constant_zero_apply dot_S512x768_S1024x768_S512x1024_1_1_0_0_n_n none a b (ix2 r h)).trans ?_
  rw [← Equiv.sum_comp (contrEquiv1 dot_S512x768_S1024x768_S512x1024_1_1_0_0_n_n 768 rfl rfl).symm]
  refine Finset.sum_congr rfl fun k _ => ?_
  have hk := contrEquiv1_symm_val dot_S512x768_S1024x768_S512x1024_1_1_0_0_n_n 768 rfl rfl k
  have el : dot_S512x768_S1024x768_S512x1024_1_1_0_0_n_n.lhsIdx (ix2 r h) ((contrEquiv1 dot_S512x768_S1024x768_S512x1024_1_1_0_0_n_n 768 rfl rfl).symm k) = ix2 r k :=
    funext fun ax => Fin.ext (by
      match ax with
      | ⟨0, _⟩ => exact lhsB_0 _ _
      | ⟨1, _⟩ => exact (lhsB_1 _ _).trans hk)
  have er : dot_S512x768_S1024x768_S512x1024_1_1_0_0_n_n.rhsIdx (ix2 r h) ((contrEquiv1 dot_S512x768_S1024x768_S512x1024_1_1_0_0_n_n 768 rfl rfl).symm k) = ix2 h k :=
    funext fun ax => Fin.ext (by
      match ax with
      | ⟨0, _⟩ => exact rhsB_0 _ _
      | ⟨1, _⟩ => exact (rhsB_1 _ _).trans hk)
  rw [el, er]

/-! ## The body's arithmetic at an entry of the output block -/

/-- The left half of a 512 × 1536 array: entry `(r, f)`. -/
theorem leftHalf_apply (v : FVec Ideal S512x1536 .f32) (hs : S512x1536.Slices ![0, 0] S512x768) (r : Fin 512) (f : Fin 768) :
    extractStridedSlice S512x768 ![0, 0] v hs (ix2 r f) = v (ix2 r ⟨f.val, by have := f.isLt; omega⟩) :=
  extractStridedSlice_apply _ v hs _ _ fun a => by
    match a with
    | ⟨0, _⟩ => show r.val = 0 + r.val; omega
    | ⟨1, _⟩ => show f.val = 0 + f.val; omega

/-- The right half, which starts at column 768: entry `(r, f)`. -/
theorem rightHalf_apply (v : FVec Ideal S512x1536 .f32) (hs : S512x1536.Slices ![0, 768] S512x768) (r : Fin 512) (f : Fin 768) :
    extractStridedSlice S512x768 ![0, 768] v hs (ix2 r f) = v (ix2 r ⟨768 + f.val, by have := f.isLt; omega⟩) :=
  extractStridedSlice_apply _ v hs _ _ fun a => by
    match a with
    | ⟨0, _⟩ => show r.val = 0 + r.val; omega
    | ⟨1, _⟩ => show 768 + f.val = 768 + f.val; rfl

/-- Row `r` of the slot block against row `f` of the first projection's block. -/
def hidB (x0 : FVec Ideal S1x512x1024 .bf16) (x1 : FVec Ideal S1x1536x1024 .bf16) (r : Fin 512) (f : Fin 1536) : EReal :=
  ∑ k : Fin 1024, x0 (ix3 (0 : Fin 1) r k) * x1 (ix3 (0 : Fin 1) f k)

/-- The hidden row of the block: the first product of the two blocks with their unit axes dropped. -/
theorem hidden_apply (x0 : FVec Ideal S1x512x1024 .bf16) (x1 : FVec Ideal S1x1536x1024 .bf16)
    (h0 : S1x512x1024.ShapeCasts S512x1024) (h1 : S1x1536x1024.ShapeCasts S1536x1024) (r : Fin 512) (f : Fin 1536) :
    matmul dot_S512x1024_S1536x1024_S512x1536_1_1_0_0_n_n none (shapeCast S512x1024 x0 h0) (shapeCast S1536x1024 x1 h1)
        (constant (F := Ideal) S512x1536 .f32 0x00000000#32) (ix2 r f)
      = hidB x0 x1 r f := by
  refine (mmA_apply _ _ r f).trans ?_
  refine Finset.sum_congr rfl fun k _ => ?_
  exact congrArg₂ (· * ·) (shapeCast_1ab_ab_apply x0 h0 r k) (shapeCast_1ab_ab_apply x1 h1 f k)

/-- Entry `(u, r, h)` of what the body stores: the gated hidden row of slot `r` against row `h` of the second
    projection's block. -/
theorem pay_apply (x0 : FVec Ideal S1x512x1024 .bf16) (x1 : FVec Ideal S1x1536x1024 .bf16) (x2 : FVec Ideal S1x1024x768 .bf16)
    (u : Fin 1) (r : Fin 512) (h : Fin 1024) :
    k0_pay1 (F := Ideal) x0 x1 x2 (ix3 u r h)
      = ∑ f : Fin 768,
          ((hidB x0 x1 r ⟨f.val, by have := f.isLt; omega⟩ * Ideal.logistic (hidB x0 x1 r ⟨f.val, by have := f.isLt; omega⟩))
              * hidB x0 x1 r ⟨768 + f.val, by have := f.isLt; omega⟩)
            * x2 (ix3 (0 : Fin 1) h f) := by
  unfold k0_pay1
  refine (shapeCast_ab_1ab_apply _ _ u r h).trans ?_
  refine (mmB_apply _ _ r h).trans ?_
  refine Finset.sum_congr rfl fun f _ => ?_
  refine congrArg₂ (· * ·) ?_ (shapeCast_1ab_ab_apply x2 _ h f)
  have eg := (leftHalf_apply _ slices_S512x1536_o0_0_S512x768 r f).trans
    (hidden_apply x0 x1 shapeCasts_S1x512x1024_S512x1024 shapeCasts_S1x1536x1024_S1536x1024 r ⟨f.val, by have := f.isLt; omega⟩)
  have eu := (rightHalf_apply _ slices_S512x1536_o0_768_S512x768 r f).trans
    (hidden_apply x0 x1 shapeCasts_S1x512x1024_S512x1024 shapeCasts_S1x1536x1024_S1536x1024 r ⟨768 + f.val, by have := f.isLt; omega⟩)
  exact congrArg₂ (· * ·) (congrArg₂ (· * ·) eg (congrArg Ideal.logistic eg)) eu

/-! ## From the blocks to the array

Point `t` of the grid works on expert `t`: every window's block there is the slab `[t, :, :]` of its array. -/

theorem hz : (![0, 0, 0] : Fin 3 → Nat) = fun _ => 0 := funext fun a => by fin_cases a <;> rfl

/-- A point of the grid is an expert. -/
theorem pt_lt (t : Fin cfg0.N) : t.val < 64 := lt_of_lt_of_eq t.isLt N_0

/-- The four index maps, decided over the grid: block `(t, 0, 0)` for every window. -/
theorem slab_idx : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The blocks of ANY three arrays of the operands' shapes at point `t`, by their literal types. -/
abbrev slab0 (X : FVec Ideal S64x512x1024 .bf16) (t : Fin cfg0.N) : FVec Ideal S1x512x1024 .bf16 :=
  ((cfg0.win 0).blk t).view.read (Elt Ideal) X
abbrev slab1 (W1 : FVec Ideal S64x1536x1024 .bf16) (t : Fin cfg0.N) : FVec Ideal S1x1536x1024 .bf16 :=
  ((cfg0.win 1).blk t).view.read (Elt Ideal) W1
abbrev slab2 (W2 : FVec Ideal S64x1024x768 .bf16) (t : Fin cfg0.N) : FVec Ideal S1x1024x768 .bf16 :=
  ((cfg0.win 2).blk t).view.read (Elt Ideal) W2

/-- An entry of the slot block at point `t` is the array's entry in slab `t`. -/
theorem slab0_apply (X : FVec Ideal S64x512x1024 .bf16) (t : Fin cfg0.N) (u : Fin 1) (r : Fin 512) (k : Fin 1024) :
    slab0 X t (ix3 u r k) = X (ix3 ⟨t.val, pt_lt t⟩ r k) := by
  obtain ⟨⟨e0, e1, e2⟩, -⟩ := slab_idx t
  show X (((cfg0.win 0).blk t).view.emb (ix3 u r k)) = X (ix3 ⟨t.val, pt_lt t⟩ r k)
  refine congrArg X (funext fun a => Fin.ext ?_)
  match a with
  | ⟨0, _⟩ => show win0_0.index t (0 : Fin 3) * 1 + 1 * u.val = t.val; omega
  | ⟨1, _⟩ => show win0_0.index t (1 : Fin 3) * 512 + 1 * r.val = r.val; omega
  | ⟨2, _⟩ => show win0_0.index t (2 : Fin 3) * 1024 + 1 * k.val = k.val; omega

/-- The same for the first projection's block. -/
theorem slab1_apply (W1 : FVec Ideal S64x1536x1024 .bf16) (t : Fin cfg0.N) (u : Fin 1) (f : Fin 1536) (k : Fin 1024) :
    slab1 W1 t (ix3 u f k) = W1 (ix3 ⟨t.val, pt_lt t⟩ f k) := by
  obtain ⟨-, ⟨e0, e1, e2⟩, -⟩ := slab_idx t
  show W1 (((cfg0.win 1).blk t).view.emb (ix3 u f k)) = W1 (ix3 ⟨t.val, pt_lt t⟩ f k)
  refine congrArg W1 (funext fun a => Fin.ext ?_)
  match a with
  | ⟨0, _⟩ => show win0_1.index t (0 : Fin 3) * 1 + 1 * u.val = t.val; omega
  | ⟨1, _⟩ => show win0_1.index t (1 : Fin 3) * 1536 + 1 * f.val = f.val; omega
  | ⟨2, _⟩ => show win0_1.index t (2 : Fin 3) * 1024 + 1 * k.val = k.val; omega

/-- The same for the second projection's block. -/
theorem slab2_apply (W2 : FVec Ideal S64x1024x768 .bf16) (t : Fin cfg0.N) (u : Fin 1) (h : Fin 1024) (f : Fin 768) :
    slab2 W2 t (ix3 u h f) = W2 (ix3 ⟨t.val, pt_lt t⟩ h f) := by
  obtain ⟨-, -, ⟨e0, e1, e2⟩, -⟩ := slab_idx t
  show W2 (((cfg0.win 2).blk t).view.emb (ix3 u h f)) = W2 (ix3 ⟨t.val, pt_lt t⟩ h f)
  refine congrArg W2 (funext fun a => Fin.ext ?_)
  match a with
  | ⟨0, _⟩ => show win0_2.index t (0 : Fin 3) * 1 + 1 * u.val = t.val; omega
  | ⟨1, _⟩ => show win0_2.index t (1 : Fin 3) * 1024 + 1 * h.val = h.val; omega
  | ⟨2, _⟩ => show win0_2.index t (2 : Fin 3) * 768 + 1 * f.val = f.val; omega

/-- Where an entry of the output block at point `t` sits in the output array. -/
theorem out_emb (t : Fin cfg0.N) (u : Fin 1) (r : Fin 512) (h : Fin 1024) :
    ((cfg0.win 3).blk t).view.emb (ix3 u r h) = ix3 ⟨t.val, pt_lt t⟩ r h := by
  obtain ⟨-, -, -, e0, e1, e2⟩ := slab_idx t
  refine funext fun a => Fin.ext ?_
  match a with
  | ⟨0, _⟩ => show win0_3.index t (0 : Fin 3) * 1 + 1 * u.val = t.val; omega
  | ⟨1, _⟩ => show win0_3.index t (1 : Fin 3) * 512 + 1 * r.val = r.val; omega
  | ⟨2, _⟩ => show win0_3.index t (2 : Fin 3) * 1024 + 1 * h.val = h.val; omega

/-- The hidden row computed from the blocks at point `t` is expert `t`'s hidden row. -/
theorem hidB_slab (X : FVec Ideal S64x512x1024 .bf16) (W1 : FVec Ideal S64x1536x1024 .bf16) (t : Fin cfg0.N)
    (r : Fin 512) (f : Fin 1536) :
    hidB (slab0 X t) (slab1 W1 t) r f = Cert.Moe.hid X W1 ⟨t.val, pt_lt t⟩ r f := by
  unfold hidB Cert.Moe.hid
  refine Finset.sum_congr rfl fun k _ => ?_
  exact congrArg₂ (· * ·) (slab0_apply X t 0 r k) (slab1_apply W1 t 0 f k)

/-- An entry of what the body computes from the blocks at point `t` is the bank's entry under it. -/
theorem out_entry (X : FVec Ideal S64x512x1024 .bf16) (W1 : FVec Ideal S64x1536x1024 .bf16)
    (W2 : FVec Ideal S64x1024x768 .bf16) (t : Fin cfg0.N) (y : S1x512x1024.Idx) :
    k0_pay1 (F := Ideal) (slab0 X t) (slab1 W1 t) (slab2 W2 t) y
      = Cert.Moe.mlp X W1 W2 (((cfg0.win 3).blk t).view.emb y) := by
  obtain ⟨u, r, h, rfl⟩ : ∃ (u : Fin 1) (r : Fin 512) (h : Fin 1024), y = ix3 u r h := ⟨y 0, y 1, y 2, eq_ix3 y⟩
  refine (pay_apply (slab0 X t) (slab1 W1 t) (slab2 W2 t) u r h).trans ?_
  refine Eq.trans ?_ (congrArg (Cert.Moe.mlp X W1 W2) (out_emb t u r h).symm)
  show _ = ∑ f : Fin 768, Cert.Moe.act X W1 ⟨t.val, pt_lt t⟩ r f * W2 (ix3 ⟨t.val, pt_lt t⟩ h f)
  refine Finset.sum_congr rfl fun f _ => ?_
  refine congrArg₂ (· * ·) ?_ (slab2_apply W2 t 0 h f)
  have eg := hidB_slab X W1 t r ⟨f.val, by have := f.isLt; omega⟩
  have eu := hidB_slab X W1 t r ⟨768 + f.val, by have := f.isLt; omega⟩
  exact congrArg₂ (· * ·) (congrArg₂ (· * ·) eg (congrArg Ideal.logistic eg)) eu

/-- What the body leaves in the output's buffer at point `t`, written back, is block `t` of the bank's result —
    for any three arrays, read through the input windows' blocks. -/
theorem cut_pay (X : FVec Ideal S64x512x1024 .bf16) (W1 : FVec Ideal S64x1536x1024 .bf16)
    (W2 : FVec Ideal S64x1024x768 .bf16) (t : Fin cfg0.N) :
    (cfg0.win 3).cut (grid0.coords t) (k0_pay1 (F := Ideal) (slab0 X t) (slab1 W1 t) (slab2 W2 t))
      = ((cfg0.win 3).blk t).view.read (Elt Ideal) (Cert.Moe.mlp X W1 W2) := by
  funext y
  exact out_entry X W1 W2 t y

/-- What point `t` writes back is block `t` of the bank's result on the arrays the region finds. -/
theorem flushed_eq (c : Dev nD) (t : Fin cfg0.N) :
    (dats (F := Ideal) m 0 c).flushed 3 t
      = ((cfg0.win 3).blk t).view.read (Elt Ideal) (Cert.Moe.mlp (V m c main_v52) (V m c main_v53) (V m c main_v54)) := by
  show (cfg0.win 3).cut (grid0.coords t) ((dats (F := Ideal) m 0 c).after 3 t) = _
  rw [after0_3]
  unfold out0_3
  rw [View.canon_unit_zero hz]
  simp only [View.ld_unit_zero (S := S1x512x1024) hz, View.ld_unit_zero (S := S1x1536x1024) hz,
    View.ld_unit_zero (S := S1x1024x768) hz]
  exact cut_pay (V m c main_v52) (V m c main_v53) (V m c main_v54) t

/-- An index of the output array is in point `t`'s block iff each coordinate is in the block's range. -/
theorem mem_slab (t : Fin cfg0.N) (i : S64x512x1024.Idx) :
    i ∈ ((cfg0.win 3).blk t).view.set
      ↔ ∀ a : Fin 3, win0_3.index t a * S1x512x1024.size a ≤ (i a).val
          ∧ (i a).val < win0_3.index t a * S1x512x1024.size a + S1x512x1024.size a := by
  show i ∈ ((View.whole main_v55).slice (win0_3.rect t)).set ↔ _
  rw [View.set_slice_whole, Rect.mem_set_unit]
  exact Iff.rfl

/-- Every index of the output array lies in the block of the point named by its expert coordinate. -/
theorem slabs_cover (i : S64x512x1024.Idx) :
    ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  obtain ⟨-, -, -, e0, e1, e2⟩ := slab_idx t
  refine ⟨t, flush0_3 t, ?_⟩
  rw [mem_slab]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

theorem final3 (c : Dev nD) :
    (dats (F := Ideal) m 0 c).arrAt 3 cfg0.N
      = Cert.Moe.mlp (V m c main_v52) (V m c main_v53) (V m c main_v54) :=
  (dats (F := Ideal) m 0 c).arrAt_eq_of_cover 3 (Cert.Moe.mlp (V m c main_v52) (V m c main_v53) (V m c main_v54))
    (fun t _ => flushed_eq m c t) slabs_cover

end Cert.KernelIdeal.KV

end
-- ==== Proof.RefRun.lean ====
/-
  The reference program is a straight line of host operations. Its @main is restated as the sequence of five
  lists (dispatch in two stretches, the expert MLPs, combine in two stretches), so every weakly fair execution
  terminates and leaves each buffer at the fold of those operations over the launch contents.
-/
import proofs.«152988_j58317065945110_1_alg».proof.Proof.RefOps
import Idealize.ShloMosaic.Lib.Pipeline.Frame

noncomputable section

namespace Cert.ReferenceIdeal.Ops

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order: dispatch, then the expert MLPs, then combine. -/
abbrev ops : List (HloOp τ sig (Elt F)) := opsA1 ++ opsA2 ++ opsB ++ opsC1 ++ opsC2

set_option maxRecDepth 16384 in
set_option maxHeartbeats 4000000 in
/-- @main is that straight line: the outlined functions unfolded at their calls, both sides are one chain of steps
    once sequencing is reassociated. -/
theorem main_eq (c : Dev nD) : main (F := F) c = seq ops := by
  simp only [main, main_part0, main_part1, main_part2, fn_argsort.body, fn_cumsum.body, fn_cumsum_0.body,
    fn_floor_divide.body, fn_where.body, fn_silu.body, ops, opsA1, opsA2, opsB, opsC1, opsC2, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨List.forall_append.mpr ⟨opsA1_sub, opsA2_sub⟩, opsB_sub⟩, opsC1_sub⟩, opsC2_sub⟩

theorem opsA1_fresh : (opsA1 : List (HloOp τ sig (Elt F))).Forall fun op => op.fresh = ∅ := by
  simp only [List.Forall]; repeat' constructor
theorem opsA2_fresh : (opsA2 : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC1_fresh : (opsC1 : List (HloOp τ sig (Elt F))).Forall fun op => op.fresh = ∅ := by
  simp only [List.Forall]; repeat' constructor
theorem opsC2_fresh : (opsC2 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (List.forall_append.mpr ⟨List.forall_append.mpr ⟨List.forall_append.mpr ⟨List.forall_append.mpr ⟨opsA1_fresh, opsA2_fresh⟩, opsB_fresh⟩, opsC1_fresh⟩, opsC2_fresh⟩)

/-- From any memory with zero counters every weakly fair execution of @main terminates, and every buffer ends at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over the whole line is the five stretches' folds composed. -/
theorem after_ops (V : Valuation τ sig (Elt F)) :
    after ops V = after opsC2 (after opsC1 (after opsB (after opsA2 (after opsA1 V)))) := by
  simp only [ops, StableHlo.after_append]

end Cert.ReferenceIdeal.Ops

end
-- ==== Proof.RefMid.lean ====
/-
  The reference's side: between dispatch and combine it multiplies the slot buffers with the first projection (a
  batched product over the experts, contracting the feature axis), splits the hidden rows into the gate half and the
  value half, forms `g · (1 / (1 + exp (-g)))` times the value half, and multiplies with the second projection (again
  batched, contracting the hidden axis). Read entry by entry the two products are finite sums over the contracted
  coordinate, the halves are the hidden row at columns `f` and `768 + f`, and `1 / (1 + exp (-g))` is the logistic
  function, so the composition is the bank of gated MLPs entry for entry.
-/
import proofs.«152988_j58317065945110_1_alg».proof.Proof.Gen.ReferenceIdeal
import proofs.«152988_j58317065945110_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.ReferenceIdeal.Mid

open Cert.ReferenceIdeal Cert.ReferenceIdeal.Gen Idealize.ShloMosaic.ValueIdx

/-- The reference between dispatch and combine, as printed: the batched product with the first projection, its two
    halves, `g · (1 / (1 + exp (-g)))` times the value half, the batched product with the second projection. -/
def refMid (b : FVec Ideal S64x512x1024 .f32) (w1 : FVec Ideal S64x1536x1024 .f32) (w2 : FVec Ideal S64x1024x768 .f32) :
    FVec Ideal S64x512x1024 .f32 :=
  Host.dotGeneral dot_S64x512x768_S64x1024x768_S64x512x1024_2_2_1_1_0_0 none
    (mulf
      (mulf
        (extractStridedSlice S64x512x768 ![0, 0, 0] (Host.dotGeneral dot_S64x512x1024_S64x1536x1024_S64x512x1536_2_2_1_1_0_0 none b w1) slices_S64x512x1536_S64x512x768_0_0_0)
        (Host.divf (broadcastInDim S64x512x768 ![] bcast_S_S64x512x768 (constant (F := Ideal) S_ .f32 0x3F800000#32))
          (addf (broadcastInDim S64x512x768 ![] bcast_S_S64x512x768 (constant (F := Ideal) S_ .f32 0x3F800000#32))
            (Host.exp (Host.negf
              (extractStridedSlice S64x512x768 ![0, 0, 0] (Host.dotGeneral dot_S64x512x1024_S64x1536x1024_S64x512x1536_2_2_1_1_0_0 none b w1) slices_S64x512x1536_S64x512x768_0_0_0))))))
      (extractStridedSlice S64x512x768 ![0, 0, 768] (Host.dotGeneral dot_S64x512x1024_S64x1536x1024_S64x512x1536_2_2_1_1_0_0 none b w1) slices_S64x512x1536_S64x512x768_0_0_768))
    w2

/-! ## The two products' dimension numbers, and their operand indices by coordinates

Both products batch over axis 0 (the expert), keep axis 1 of each operand, and contract axis 2 of each. -/

/-- The first product's dimension numbers: slots times the first projection, per expert. -/
abbrev D1 : DotDims S64x512x1024 S64x1536x1024 S64x512x1536 := dot_S64x512x1024_S64x1536x1024_S64x512x1536_2_2_1_1_0_0
/-- The second product's dimension numbers: activations times the second projection, per expert. -/
abbrev D2 : DotDims S64x512x768 S64x1024x768 S64x512x1024 := dot_S64x512x768_S64x1024x768_S64x512x1024_2_2_1_1_0_0

/-- At output `(e, c, f)` and contraction position `k` the first product reads the slots at `(e, c, k)` … -/
theorem d1_lhs (e : Fin 64) (c : Fin 512) (f : Fin 1536) (k : Fin 1024) :
    D1.lhsIdx (ix3 e c f) ((contrEquiv1 D1 1024 rfl rfl).symm k) = ix3 e c k := by
  funext a
  match a with
  | ⟨0, _⟩ => exact Fin.ext rfl
  | ⟨1, _⟩ => exact Fin.ext rfl
  | ⟨2, _⟩ => exact Fin.ext ((DotDims.lhsIdx_val_of_single D1 (cl := 2) rfl _ _).trans (contrEquiv1_symm_val D1 1024 rfl rfl k))

/-- … and the projection at `(e, f, k)`. -/
theorem d1_rhs (e : Fin 64) (c : Fin 512) (f : Fin 1536) (k : Fin 1024) :
    D1.rhsIdx (ix3 e c f) ((contrEquiv1 D1 1024 rfl rfl).symm k) = ix3 e f k := by
  funext a
  match a with
  | ⟨0, _⟩ => exact Fin.ext rfl
  | ⟨1, _⟩ => exact Fin.ext rfl
  | ⟨2, _⟩ => exact Fin.ext ((DotDims.rhsIdx_val_of_single D1 (cr := 2) rfl _ _).trans (contrEquiv1_symm_val D1 1024 rfl rfl k))

/-- At output `(e, c, h)` and contraction position `f` the second product reads the activations at `(e, c, f)` … -/
theorem d2_lhs (e : Fin 64) (c : Fin 512) (h : Fin 1024) (f : Fin 768) :
    D2.lhsIdx (ix3 e c h) ((contrEquiv1 D2 768 rfl rfl).symm f) = ix3 e c f := by
  funext a
  match a with
  | ⟨0, _⟩ => exact Fin.ext rfl
  | ⟨1, _⟩ => exact Fin.ext rfl
  | ⟨2, _⟩ => exact Fin.ext ((DotDims.lhsIdx_val_of_single D2 (cl := 2) rfl _ _).trans (contrEquiv1_symm_val D2 768 rfl rfl f))

/-- … and the projection at `(e, h, f)`. -/
theorem d2_rhs (e : Fin 64) (c : Fin 512) (h : Fin 1024) (f : Fin 768) :
    D2.rhsIdx (ix3 e c h) ((contrEquiv1 D2 768 rfl rfl).symm f) = ix3 e h f := by
  funext a
  match a with
  | ⟨0, _⟩ => exact Fin.ext rfl
  | ⟨1, _⟩ => exact Fin.ext rfl
  | ⟨2, _⟩ => exact Fin.ext ((DotDims.rhsIdx_val_of_single D2 (cr := 2) rfl _ _).trans (contrEquiv1_symm_val D2 768 rfl rfl f))

/-! ## The two products at an index -/

/-- The first product at `(e, c, f)` is `∑ₖ b[e, c, k] · w1[e, f, k]`. -/
theorem dot1_apply (b : FVec Ideal S64x512x1024 .f32) (w1 : FVec Ideal S64x1536x1024 .f32)
    (e : Fin 64) (c : Fin 512) (f : Fin 1536) :
    Host.dotGeneral (F := Ideal) D1 none b w1 (ix3 e c f) = ∑ k : Fin 1024, b (ix3 e c k) * w1 (ix3 e f k) := by
  refine (Ideal.dotGeneral_apply D1 none .single b w1 (ix3 e c f)).trans ?_
  refine (Equiv.sum_comp (contrEquiv1 D1 1024 rfl rfl).symm _).symm.trans ?_
  refine Finset.sum_congr rfl fun k _ => ?_
  rw [d1_lhs, d1_rhs]

/-- The second product at `(e, c, h)` is `∑_f a[e, c, f] · w2[e, h, f]`. -/
theorem dot2_apply (a : FVec Ideal S64x512x768 .f32) (w2 : FVec Ideal S64x1024x768 .f32)
    (e : Fin 64) (c : Fin 512) (h : Fin 1024) :
    Host.dotGeneral (F := Ideal) D2 none a w2 (ix3 e c h) = ∑ f : Fin 768, a (ix3 e c f) * w2 (ix3 e h f) := by
  refine (Ideal.dotGeneral_apply D2 none .single a w2 (ix3 e c h)).trans ?_
  refine (Equiv.sum_comp (contrEquiv1 D2 768 rfl rfl).symm _).symm.trans ?_
  refine Finset.sum_congr rfl fun f _ => ?_
  rw [d2_lhs, d2_rhs]

/-! ## The two halves of the hidden row -/

/-- The first half of the hidden row at `(e, c, f)` is the specification's gate. -/
theorem gate_apply (b : FVec Ideal S64x512x1024 .f32) (w1 : FVec Ideal S64x1536x1024 .f32)
    (e : Fin 64) (c : Fin 512) (f : Fin 768) :
    extractStridedSlice S64x512x768 ![0, 0, 0] (Host.dotGeneral (F := Ideal) D1 none b w1) slices_S64x512x1536_S64x512x768_0_0_0 (ix3 e c f)
      = Cert.Moe.gate b w1 e c f := by
  refine (extractStridedSlice_apply _ _ _ (ix3 e c f) (ix3 e c (⟨f.val, by have := f.isLt; omega⟩ : Fin 1536)) ?_).trans ?_
  · intro a
    match a with
    | ⟨0, _⟩ => exact (Nat.zero_add _).symm
    | ⟨1, _⟩ => exact (Nat.zero_add _).symm
    | ⟨2, _⟩ => exact (Nat.zero_add _).symm
  · exact dot1_apply b w1 e c _

/-- The second half at `(e, c, f)`, the hidden row at column `768 + f`, is the specification's value. -/
theorem up_apply (b : FVec Ideal S64x512x1024 .f32) (w1 : FVec Ideal S64x1536x1024 .f32)
    (e : Fin 64) (c : Fin 512) (f : Fin 768) :
    extractStridedSlice S64x512x768 ![0, 0, 768] (Host.dotGeneral (F := Ideal) D1 none b w1) slices_S64x512x1536_S64x512x768_0_0_768 (ix3 e c f)
      = Cert.Moe.up b w1 e c f := by
  refine (extractStridedSlice_apply _ _ _ (ix3 e c f) (ix3 e c (⟨768 + f.val, by have := f.isLt; omega⟩ : Fin 1536)) ?_).trans ?_
  · intro a
    match a with
    | ⟨0, _⟩ => exact (Nat.zero_add _).symm
    | ⟨1, _⟩ => exact (Nat.zero_add _).symm
    | ⟨2, _⟩ => rfl
  · exact dot1_apply b w1 e c _

/-! ## The activation -/

/-- The word `0x3F800000` denotes one. -/
theorem one_bits : Ideal.ofBits .f32 0x3F800000#32 = 1 := by
  simp [Ideal.ofBits, Ideal.ieee, -EReal.coe_mul]; norm_num

/-- `1 / (1 + exp (-g))` with the ones broadcast scalars, read at an index, is the logistic function of the element. -/
theorem sig_apply (g : FVec Ideal S64x512x768 .f32) (j : S64x512x768.Idx) :
    Host.divf (broadcastInDim S64x512x768 ![] bcast_S_S64x512x768 (constant (F := Ideal) S_ .f32 0x3F800000#32))
        (addf (broadcastInDim S64x512x768 ![] bcast_S_S64x512x768 (constant (F := Ideal) S_ .f32 0x3F800000#32))
          (Host.exp (Host.negf g))) j
      = Ideal.logistic (g j) := by
  show Ideal.div (Ideal.ofBits .f32 0x3F800000#32) (Ideal.ofBits .f32 0x3F800000#32 + Ideal.exp (-(g j))) = _
  rw [one_bits]
  rfl

/-- The gated activation at `(e, c, f)` is the specification's. -/
theorem act_apply (b : FVec Ideal S64x512x1024 .f32) (w1 : FVec Ideal S64x1536x1024 .f32)
    (e : Fin 64) (c : Fin 512) (f : Fin 768) :
    mulf
        (mulf
          (extractStridedSlice S64x512x768 ![0, 0, 0] (Host.dotGeneral (F := Ideal) D1 none b w1) slices_S64x512x1536_S64x512x768_0_0_0)
          (Host.divf (broadcastInDim S64x512x768 ![] bcast_S_S64x512x768 (constant (F := Ideal) S_ .f32 0x3F800000#32))
            (addf (broadcastInDim S64x512x768 ![] bcast_S_S64x512x768 (constant (F := Ideal) S_ .f32 0x3F800000#32))
              (Host.exp (Host.negf
                (extractStridedSlice S64x512x768 ![0, 0, 0] (Host.dotGeneral (F := Ideal) D1 none b w1) slices_S64x512x1536_S64x512x768_0_0_0))))))
        (extractStridedSlice S64x512x768 ![0, 0, 768] (Host.dotGeneral (F := Ideal) D1 none b w1) slices_S64x512x1536_S64x512x768_0_0_768)
        (ix3 e c f)
      = Cert.Moe.act b w1 e c f := by
  refine (mulf_apply _ _ _).trans ?_
  unfold Cert.Moe.act
  refine congrArg₂ (· * ·) ?_ (up_apply b w1 e c f)
  refine (mulf_apply _ _ _).trans ?_
  refine congrArg₂ (· * ·) (gate_apply b w1 e c f) ?_
  refine (sig_apply _ _).trans ?_
  exact congrArg Ideal.logistic (gate_apply b w1 e c f)

/-! ## The composition is the bank of gated MLPs -/

theorem mid_eq (b : FVec Ideal S64x512x1024 .f32) (w1 : FVec Ideal S64x1536x1024 .f32) (w2 : FVec Ideal S64x1024x768 .f32) :
    refMid b w1 w2 = Cert.Moe.mlp b w1 w2 := by
  funext i
  obtain ⟨e, c, h, rfl⟩ : ∃ (e : Fin 64) (c : Fin 512) (h : Fin 1024), i = ix3 e c h := ⟨i 0, i 1, i 2, eq_ix3 i⟩
  unfold refMid
  refine (dot2_apply _ w2 e c h).trans ?_
  show _ = Cert.Moe.mlpAt b w1 w2 e c h
  unfold Cert.Moe.mlpAt
  refine Finset.sum_congr rfl fun f _ => ?_
  exact congrArg (· * w2 (ix3 e h f)) (act_apply b w1 e c f)

end Cert.ReferenceIdeal.Mid

end
-- ==== Proof.RefVal.lean ====
/-
  What the reference's stretch of expert MLPs computes, read at its result buffer, and that the whole line writes
  no argument.
-/
import proofs.«152988_j58317065945110_1_alg».proof.Proof.RefRun
import proofs.«152988_j58317065945110_1_alg».proof.Proof.RefMid

noncomputable section

namespace Cert.ReferenceIdeal.Ops

open Cert.ReferenceIdeal Cert.ReferenceIdeal.Gen Idealize.ShloMosaic Idealize.ShloMosaic.TcCoe Idealize.SL.Sem
open Idealize.ShloMosaic.StableHlo

/-- The expert MLPs' result buffer after their stretch, from any contents `W`: the printed composition of the slot
    buffers and the two weight arrays as `W` has them. -/
theorem mid_after (W : Valuation τ sig (Elt Ideal)) :
    after opsB W (main_v57 : DevRef τ sig)
      = Mid.refMid (W (main_v51 : DevRef τ sig)) (W (main_arg3 : DevRef τ sig)) (W (main_arg4 : DevRef τ sig)) := by
  after_results
  rfl

set_option maxRecDepth 16384 in
set_option maxHeartbeats 4000000 in
theorem ops_keeps_arg0 (V : Valuation τ sig (Elt Ideal)) : after ops V (main_arg0 : DevRef τ sig) = V (main_arg0 : DevRef τ sig) := by
  simp only [ops, opsA1, opsA2, opsB, opsC1, opsC2, List.cons_append, List.nil_append]
  after_results_simp

set_option maxRecDepth 16384 in
set_option maxHeartbeats 4000000 in
theorem ops_keeps_arg1 (V : Valuation τ sig (Elt Ideal)) : after ops V (main_arg1 : DevRef τ sig) = V (main_arg1 : DevRef τ sig) := by
  simp only [ops, opsA1, opsA2, opsB, opsC1, opsC2, List.cons_append, List.nil_append]
  after_results_simp

set_option maxRecDepth 16384 in
set_option maxHeartbeats 4000000 in
theorem ops_keeps_arg2 (V : Valuation τ sig (Elt Ideal)) : after ops V (main_arg2 : DevRef τ sig) = V (main_arg2 : DevRef τ sig) := by
  simp only [ops, opsA1, opsA2, opsB, opsC1, opsC2, List.cons_append, List.nil_append]
  after_results_simp

set_option maxRecDepth 16384 in
set_option maxHeartbeats 4000000 in
theorem ops_keeps_arg3 (V : Valuation τ sig (Elt Ideal)) : after ops V (main_arg3 : DevRef τ sig) = V (main_arg3 : DevRef τ sig) := by
  simp only [ops, opsA1, opsA2, opsB, opsC1, opsC2, List.cons_append, List.nil_append]
  after_results_simp

set_option maxRecDepth 16384 in
set_option maxHeartbeats 4000000 in
theorem ops_keeps_arg4 (V : Valuation τ sig (Elt Ideal)) : after ops V (main_arg4 : DevRef τ sig) = V (main_arg4 : DevRef τ sig) := by
  simp only [ops, opsA1, opsA2, opsB, opsC1, opsC2, List.cons_append, List.nil_append]
  after_results_simp

end Cert.ReferenceIdeal.Ops

end
-- ==== Proof.Bridge.lean ====
/-
  The two runs end at one result. The kernel program's result is its lines after the region applied to the buffers as
  the region leaves them: the output array at the bank of gated MLPs of the slot buffers (the kernel's value), every
  other buffer as dispatch left it. The reference's result is its combine lines applied after its own expert MLPs,
  which are the same bank of the same slot buffers. Dispatch computes the same tables and slot buffers in both from
  arguments that agree, and combine is one function of them.
-/
import proofs.«152988_j58317065945110_1_alg».proof.Proof.GlueD1
import proofs.«152988_j58317065945110_1_alg».proof.Proof.GlueD2
import proofs.«152988_j58317065945110_1_alg».proof.Proof.GlueC
import proofs.«152988_j58317065945110_1_alg».proof.Proof.KerVal
import proofs.«152988_j58317065945110_1_alg».proof.Proof.RefVal
import Idealize.ShloMosaic.Lib.Pipeline.FrameSuffix

noncomputable section

namespace Cert.Bridge

open Idealize.ShloMosaic Idealize.ShloMosaic.TcCoe Idealize.SL.Sem Idealize.ShloMosaic.StableHlo
open Cert.Glue

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The buffers as the kernel's region leaves them on core `c`: the windows' arrays at what the run computes, the rest
    as the lines before the region left them. -/
abbrev leftK (c : Dev Cert.KernelIdeal.nD) : Valuation Cert.KernelIdeal.τ Cert.KernelIdeal.sig (Elt Ideal) :=
  Pipeline.withArrays (Cert.KernelIdeal.cfgs 0).spec c (Cert.KernelIdeal.Gen.V0 m c) fun w => (Cert.KernelIdeal.Gen.dats m 0 c).arrAt w (Cert.KernelIdeal.cfgs 0).N

theorem result_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    after Cert.ReferenceIdeal.Ops.ops (launchContents m' c) (Cert.ReferenceIdeal.main_v94 : DevRef Cert.ReferenceIdeal.τ Cert.ReferenceIdeal.sig)
      = Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2] c Cert.KernelIdeal.main_v92 := by
  obtain ⟨a0, a1, a2, a3, a4⟩ := hagree c
  -- the two programs' launch contents, and what each stretch leaves
  let VK : Valuation Cert.KernelIdeal.τ Cert.KernelIdeal.sig (Elt Ideal) := fun b => m (c, b)
  let VR : Valuation Cert.ReferenceIdeal.τ Cert.ReferenceIdeal.sig (Elt Ideal) := launchContents m' c
  let K1 := after Cert.KernelIdeal.Ops.kA1 VK
  let R1 := after Cert.ReferenceIdeal.Ops.opsA1 VR
  let R2 := after Cert.ReferenceIdeal.Ops.opsA2 R1
  let R3 := after Cert.ReferenceIdeal.Ops.opsB R2
  let R4 := after Cert.ReferenceIdeal.Ops.opsC1 R3
  have h0 : VK (Cert.KernelIdeal.main_arg0 : DevRef Cert.KernelIdeal.τ Cert.KernelIdeal.sig) = VR (Cert.ReferenceIdeal.main_arg0 : DevRef Cert.ReferenceIdeal.τ Cert.ReferenceIdeal.sig) := a0.symm
  have h1 : VK (Cert.KernelIdeal.main_arg1 : DevRef Cert.KernelIdeal.τ Cert.KernelIdeal.sig) = VR (Cert.ReferenceIdeal.main_arg1 : DevRef Cert.ReferenceIdeal.τ Cert.ReferenceIdeal.sig) := a1.symm
  have h2 : VK (Cert.KernelIdeal.main_arg2 : DevRef Cert.KernelIdeal.τ Cert.KernelIdeal.sig) = VR (Cert.ReferenceIdeal.main_arg2 : DevRef Cert.ReferenceIdeal.τ Cert.ReferenceIdeal.sig) := a2.symm
  have h3 : VK (Cert.KernelIdeal.main_arg3 : DevRef Cert.KernelIdeal.τ Cert.KernelIdeal.sig) = VR (Cert.ReferenceIdeal.main_arg3 : DevRef Cert.ReferenceIdeal.τ Cert.ReferenceIdeal.sig) := a3.symm
  have h4 : VK (Cert.KernelIdeal.main_arg4 : DevRef Cert.KernelIdeal.τ Cert.KernelIdeal.sig) = VR (Cert.ReferenceIdeal.main_arg4 : DevRef Cert.ReferenceIdeal.τ Cert.ReferenceIdeal.sig) := a4.symm
  -- the lines before the region, cut
  have eV0 : Cert.KernelIdeal.Gen.V0 m c = after Cert.KernelIdeal.Ops.kA2 K1 := by
    show after _ VK = _
    rw [kpre_eq, StableHlo.after_append]
  -- dispatch: the routing tables, the routing weights, the slot buffers and the two weight arrays
  have L8 : Cert.KernelIdeal.Gen.V0 m c (Cert.KernelIdeal.main_v8 : DevRef Cert.KernelIdeal.τ Cert.KernelIdeal.sig) = R3 (Cert.ReferenceIdeal.main_v8 : DevRef Cert.ReferenceIdeal.τ Cert.ReferenceIdeal.sig) :=
    (congrFun eV0 _).trans ((kA2_keeps_v8 K1).trans ((d1_v8 VK VR h0 h2).trans ((opsA2_keeps_v8 R1).symm.trans (opsB_keeps_v8 R2).symm)))
  have L28 : Cert.KernelIdeal.Gen.V0 m c (Cert.KernelIdeal.main_v28 : DevRef Cert.KernelIdeal.τ Cert.KernelIdeal.sig) = R3 (Cert.ReferenceIdeal.main_v28 : DevRef Cert.ReferenceIdeal.τ Cert.ReferenceIdeal.sig) :=
    (congrFun eV0 _).trans ((kA2_keeps_v28 K1).trans ((d1_v28 VK VR h0 h2).trans ((opsA2_keeps_v28 R1).symm.trans (opsB_keeps_v28 R2).symm)))
  have L1 : Cert.KernelIdeal.Gen.V0 m c (Cert.KernelIdeal.main_v1 : DevRef Cert.KernelIdeal.τ Cert.KernelIdeal.sig) = R3 (Cert.ReferenceIdeal.main_v1 : DevRef Cert.ReferenceIdeal.τ Cert.ReferenceIdeal.sig) :=
    (congrFun eV0 _).trans ((kA2_keeps_v1 K1).trans ((d1_v1 VK VR h0 h2).trans ((opsA2_keeps_v1 R1).symm.trans (opsB_keeps_v1 R2).symm)))
  have Lw : Cert.KernelIdeal.Gen.V0 m c (Cert.KernelIdeal.main_arg1 : DevRef Cert.KernelIdeal.τ Cert.KernelIdeal.sig) = R3 (Cert.ReferenceIdeal.main_arg1 : DevRef Cert.ReferenceIdeal.τ Cert.ReferenceIdeal.sig) :=
    (congrFun eV0 _).trans ((kA2_keeps_arg1 K1).trans ((kA1_keeps_arg1 VK).trans (h1.trans ((opsA1_keeps_arg1 VR).symm.trans ((opsA2_keeps_arg1 R1).symm.trans (opsB_keeps_arg1 R2).symm)))))
  have Lx : (Cert.KernelIdeal.Gen.V m c Cert.KernelIdeal.main_v52 : Cert.Moe.SX.Idx → EReal) = R2 (Cert.ReferenceIdeal.main_v51 : DevRef Cert.ReferenceIdeal.τ Cert.ReferenceIdeal.sig) :=
    (congrFun eV0 _).trans (d2_buf K1 R1 (d1_v36 VK VR h0 h2) (d1_v37 VK VR h0 h2) (d1_v48 VK VR h0 h2) (d1_v49 VK VR h0 h2))
  have Lw1 : (Cert.KernelIdeal.Gen.V m c Cert.KernelIdeal.main_v53 : Cert.Moe.SW1.Idx → EReal) = R2 (Cert.ReferenceIdeal.main_arg3 : DevRef Cert.ReferenceIdeal.τ Cert.ReferenceIdeal.sig) :=
    (congrFun eV0 _).trans ((d2_w1 K1).trans ((kA1_keeps_arg3 VK).trans (h3.trans ((opsA1_keeps_arg3 VR).symm.trans (opsA2_keeps_arg3 R1).symm))))
  have Lw2 : (Cert.KernelIdeal.Gen.V m c Cert.KernelIdeal.main_v54 : Cert.Moe.SW2.Idx → EReal) = R2 (Cert.ReferenceIdeal.main_arg4 : DevRef Cert.ReferenceIdeal.τ Cert.ReferenceIdeal.sig) :=
    (congrFun eV0 _).trans ((d2_w2 K1).trans ((kA1_keeps_arg4 VK).trans (h4.trans ((opsA1_keeps_arg4 VR).symm.trans (opsA2_keeps_arg4 R1).symm))))
  -- the expert MLPs: the kernel's output array and the reference's result are one array
  have Ly : leftK m c (Cert.KernelIdeal.main_v55 : DevRef Cert.KernelIdeal.τ Cert.KernelIdeal.sig) = R4 (Cert.ReferenceIdeal.main_v57 : DevRef Cert.ReferenceIdeal.τ Cert.ReferenceIdeal.sig) := by
    refine (Pipeline.withArrays_arr (Cert.KernelIdeal.cfgs 0).spec Cert.KernelIdeal.Gen.launch0.win.arr_inj c _ _ 3).trans ?_
    refine (Cert.KernelIdeal.KV.final3 m c).trans ?_
    rw [Lx, Lw1, Lw2]
    exact ((Cert.ReferenceIdeal.Mid.mid_eq _ _ _).symm.trans (Cert.ReferenceIdeal.Ops.mid_after R2).symm).trans (opsC1_keeps_v57 R3).symm
  -- combine
  have ne8 : leftK m c (Cert.KernelIdeal.main_v8 : DevRef Cert.KernelIdeal.τ Cert.KernelIdeal.sig) = Cert.KernelIdeal.Gen.V0 m c (Cert.KernelIdeal.main_v8 : DevRef Cert.KernelIdeal.τ Cert.KernelIdeal.sig) :=
    Pipeline.withArrays_of_ne _ c _ _ Cert.KernelIdeal.main_v8 (by exact (by decide : ∀ w, Pipeline.arrRef Cert.KernelIdeal.spec0 w ≠ Cert.KernelIdeal.main_v8))
  have ne28 : leftK m c (Cert.KernelIdeal.main_v28 : DevRef Cert.KernelIdeal.τ Cert.KernelIdeal.sig) = Cert.KernelIdeal.Gen.V0 m c (Cert.KernelIdeal.main_v28 : DevRef Cert.KernelIdeal.τ Cert.KernelIdeal.sig) :=
    Pipeline.withArrays_of_ne _ c _ _ Cert.KernelIdeal.main_v28 (by exact (by decide : ∀ w, Pipeline.arrRef Cert.KernelIdeal.spec0 w ≠ Cert.KernelIdeal.main_v28))
  have ne1 : leftK m c (Cert.KernelIdeal.main_v1 : DevRef Cert.KernelIdeal.τ Cert.KernelIdeal.sig) = Cert.KernelIdeal.Gen.V0 m c (Cert.KernelIdeal.main_v1 : DevRef Cert.KernelIdeal.τ Cert.KernelIdeal.sig) :=
    Pipeline.withArrays_of_ne _ c _ _ Cert.KernelIdeal.main_v1 (by exact (by decide : ∀ w, Pipeline.arrRef Cert.KernelIdeal.spec0 w ≠ Cert.KernelIdeal.main_v1))
  have new : leftK m c (Cert.KernelIdeal.main_arg1 : DevRef Cert.KernelIdeal.τ Cert.KernelIdeal.sig) = Cert.KernelIdeal.Gen.V0 m c (Cert.KernelIdeal.main_arg1 : DevRef Cert.KernelIdeal.τ Cert.KernelIdeal.sig) :=
    Pipeline.withArrays_of_ne _ c _ _ Cert.KernelIdeal.main_arg1 (by exact (by decide : ∀ w, Pipeline.arrRef Cert.KernelIdeal.spec0 w ≠ Cert.KernelIdeal.main_arg1))
  have hK : Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2] c Cert.KernelIdeal.main_v92
      = after Cert.KernelIdeal.Ops.kC2 (after Cert.KernelIdeal.Ops.kC1 (leftK m c)) (Cert.KernelIdeal.main_v92 : DevRef Cert.KernelIdeal.τ Cert.KernelIdeal.sig) := by
    unfold Pipeline.afterTail₀
    show after (List.flatten [Cert.KernelIdeal.Gen.hostOps1, Cert.KernelIdeal.Gen.hostOps1_1, Cert.KernelIdeal.Gen.hostOps1_2]) (leftK m c) _ = _
    rw [ktail_eq, StableHlo.after_append]
  rw [hK, Cert.ReferenceIdeal.Ops.after_ops]
  exact (c2_out (after Cert.KernelIdeal.Ops.kC1 (leftK m c)) R4
    ((kC1_keeps_v55 _).trans Ly)
    (c1_ids (leftK m c) R3 (ne8.trans L8))
    (c1_pos (leftK m c) R3 (ne28.trans L28))
    ((kC1_keeps_v1 _).trans (ne1.trans (L1.trans (opsC1_keeps_v1 R3).symm)))
    ((kC1_keeps_arg1 _).trans (new.trans (Lw.trans (opsC1_keeps_arg1 R3).symm)))).symm

end Cert.Bridge

end
-- ==== Proof.lean ====
/-
  A mixture-of-experts layer with token-choice routing: 1024 tokens of 1024 features, each sent to 8 of 64 experts.
  Dispatch sorts the 8192 (token, expert) pairs by expert, numbers each pair within its expert's group and scatters the
  tokens' rows into 64 buffers of 512 slots (pairs beyond an expert's capacity are dropped); every expert applies a gated
  MLP to its slots, `((x·W₁ᵍ) · σ(x·W₁ᵍ)) · (x·W₁ᵘ)` followed by `·W₂`; combine gathers each pair's row back (zero for a
  dropped pair), undoes the sort, weights the 8 rows of a token and adds them.

  The kernel program and the reference run the SAME dispatch and combine on the host; they differ only in the middle,
  which the kernel program computes in one pipelined region, one expert per grid point, after changing the slot buffers
  and both weight arrays to a narrower float format, and which the reference computes with two batched products. Read
  over the extended reals a format change is the identity, a block product into a zero accumulator and a batched product
  are the same finite sums, and the region's logistic function is the reference's `1 / (1 + exp (-g))`, so the two middles
  are one array (the bank of gated MLPs of Proof/Spec.lean) of the same slot buffers; no operand needs to be finite, as
  only re-indexings of finite sums are used. The claims follow: the three runs terminate leaving their arguments
  unchanged, the kernel's idealization rewrites nothing, and the two idealized programs end at equal results.
-/
import proofs.«152988_j58317065945110_1_alg».proof.Defs
import proofs.«152988_j58317065945110_1_alg».proof.Proof.Gen.Kernel
import proofs.«152988_j58317065945110_1_alg».proof.Proof.Gen.Kernel.Skeleton
import proofs.«152988_j58317065945110_1_alg».proof.Proof.Gen.Kernel.Launch
import proofs.«152988_j58317065945110_1_alg».proof.Proof.Gen.Kernel.Points
import proofs.«152988_j58317065945110_1_alg».proof.Proof.Gen.Kernel.Frame
import proofs.«152988_j58317065945110_1_alg».proof.Proof.Gen.KernelIdeal
import proofs.«152988_j58317065945110_1_alg».proof.Proof.Gen.KernelIdeal.Skeleton
import proofs.«152988_j58317065945110_1_alg».proof.Proof.Gen.KernelIdeal.Launch
import proofs.«152988_j58317065945110_1_alg».proof.Proof.Gen.KernelIdeal.Points
import proofs.«152988_j58317065945110_1_alg».proof.Proof.Gen.KernelIdeal.Frame
import proofs.«152988_j58317065945110_1_alg».proof.Proof.Gen.ReferenceIdeal
import proofs.«152988_j58317065945110_1_alg».proof.Proof.Gen.Pre_finite_inputs
import proofs.«152988_j58317065945110_1_alg».proof.Proof.Bridge
import Idealize.ShloMosaic.Adequacy
import Idealize.ShloMosaic.Init

noncomputable section

namespace Cert.Proof

open Idealize.ShloMosaic Idealize.SL.Sem Idealize.ShloMosaic.StableHlo

/-- The kernel program as printed runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c =>
      ⟨(h c Cert.ReferenceIdeal.main_arg0).trans (Cert.ReferenceIdeal.Ops.ops_keeps_arg0 _),
        (h c Cert.ReferenceIdeal.main_arg1).trans (Cert.ReferenceIdeal.Ops.ops_keeps_arg1 _),
        (h c Cert.ReferenceIdeal.main_arg2).trans (Cert.ReferenceIdeal.Ops.ops_keeps_arg2 _),
        (h c Cert.ReferenceIdeal.main_arg3).trans (Cert.ReferenceIdeal.Ops.ops_keeps_arg3 _),
        (h c Cert.ReferenceIdeal.main_arg4).trans (Cert.ReferenceIdeal.Ops.ops_keeps_arg4 _)⟩)
    (Cert.ReferenceIdeal.Ops.run_main (F := Ideal) m ρ)

/-- Both idealized programs end at the combine of one bank of gated MLPs over one dispatch of arguments that agree. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
    [Cert.KernelIdeal.Gen.hostOps1, Cert.KernelIdeal.Gen.hostOps1_1, Cert.KernelIdeal.Gen.hostOps1_2] c Cert.KernelIdeal.main_v92, ?_, ?_⟩
  · exact (θ_run Cert.KernelIdeal.defs _ _).mono (fun r h c =>
      ⟨(h c).2 Cert.KernelIdeal.main_v92 (Pipeline.mem_restRefs_of Cert.KernelIdeal.main_v92 (by decide) (by decide)),
        ((h c).2 Cert.KernelIdeal.main_arg0 (Pipeline.mem_restRefs_of Cert.KernelIdeal.main_arg0 (by decide) (by decide))).trans (Cert.KernelIdeal.Gen.W_main_arg0 m (Cert.KernelIdeal.Gen.dats m) c),
        ((h c).2 Cert.KernelIdeal.main_arg1 (Pipeline.mem_restRefs_of Cert.KernelIdeal.main_arg1 (by decide) (by decide))).trans (Cert.KernelIdeal.Gen.W_main_arg1 m (Cert.KernelIdeal.Gen.dats m) c),
        ((h c).2 Cert.KernelIdeal.main_arg2 (Pipeline.mem_restRefs_of Cert.KernelIdeal.main_arg2 (by decide) (by decide))).trans (Cert.KernelIdeal.Gen.W_main_arg2 m (Cert.KernelIdeal.Gen.dats m) c),
        ((h c).2 Cert.KernelIdeal.main_arg3 (Pipeline.mem_restRefs_of Cert.KernelIdeal.main_arg3 (by decide) (by decide))).trans (Cert.KernelIdeal.Gen.W_main_arg3 m (Cert.KernelIdeal.Gen.dats m) c),
        ((h c).2 Cert.KernelIdeal.main_arg4 (Pipeline.mem_restRefs_of Cert.KernelIdeal.main_arg4 (by decide) (by decide))).trans (Cert.KernelIdeal.Gen.W_main_arg4 m (Cert.KernelIdeal.Gen.dats m) c)⟩)
      (Cert.KernelIdeal.Gen.run_main m ρ)
  · exact (θ_run Cert.ReferenceIdeal.defs _ _).mono (fun r h c =>
      ⟨(h c Cert.ReferenceIdeal.main_v94).trans (Cert.Bridge.result_eq m m' hagree c),
        (h c Cert.ReferenceIdeal.main_arg0).trans (Cert.ReferenceIdeal.Ops.ops_keeps_arg0 _),
        (h c Cert.ReferenceIdeal.main_arg1).trans (Cert.ReferenceIdeal.Ops.ops_keeps_arg1 _),
        (h c Cert.ReferenceIdeal.main_arg2).trans (Cert.ReferenceIdeal.Ops.ops_keeps_arg2 _),
        (h c Cert.ReferenceIdeal.main_arg3).trans (Cert.ReferenceIdeal.Ops.ops_keeps_arg3 _),
        (h c Cert.ReferenceIdeal.main_arg4).trans (Cert.ReferenceIdeal.Ops.ops_keeps_arg4 _)⟩)
      (Cert.ReferenceIdeal.Ops.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
